-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x48 : Shape := ⟨2, ![2, 48]⟩
abbrev S3200000 : Shape := ⟨1, ![3200000]⟩
abbrev S1 : Shape := ⟨1, ![1]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S2x48 : S_.BroadcastsInDim S2x48 (![] : Fin 0 → Fin S2x48.rank)
  reducesTo_S2x48_S_d0_1 : S2x48.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v15 : IVec S1 1) (main_c_5 : IVec S_ 1) : IVec S_ 1 :=
  let main_v16 : IVec S_ 1 := (fun x v => Host.reduce IntOp.andi x v reducesTo_S1_S_d0 h_S_) main_v15 main_c_5
  let main_v17 : IVec S_ 1 := andi main_v13 main_v16
  main_v17

def fn {F : FTy → Type} [FloatOps F] (main_arg0 : FVec F S100000x16 .f32) (main_arg1 : FVec F S2x48 .f32) (main_arg2 : IVec S3200000 32) (main_arg3 : IVec S3200000 32) (main_arg4 : FVec F S1 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S2x48 .f32 := Host.absf main_arg1
  let main_cst_0 : FVec F S_ .f32 := constant S_ .f32 0x7F800000#32
  let main_v5 : FVec F S2x48 .f32 := broadcastInDim S2x48 ![] bcast_S_S2x48 main_cst_0
  let main_v6 : IVec S2x48 1 := cmpf .olt main_v4 main_v5
  let main_c_1 : IVec S_ 1 := constantI S_ 1 1#1
  let main_v7 : IVec S_ 1 := (fun x v => Host.reduce IntOp.andi x v reducesTo_S2x48_S_d0_1 h_S_) main_v6 main_c_1
  let main_v8 : IVec S_ 1 := andi main_v3 main_v7
  let main_v9 : FVec F S1 .f32 := Host.absf main_arg4
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_cst_4 : FVec F S_ .f32 := constant S_ .f32 0x00000000#32
  let main_v14 : FVec F S1 .f32 := broadcastInDim S1 ![] bcast_S_S1 main_cst_4
  let main_v15 : IVec S1 1 := cmpf .une main_arg4 main_v14
  let main_c_5 : IVec S_ 1 := constantI S_ 1 1#1
  fn_part1 (F := F) main_v13 main_v15 main_c_5
-- ==== Kernel.lean ====
abbrev S100000x16 : Shape := ⟨2, ![100000, 16]⟩
abbrev S2x48 : Shape := ⟨2, ![2, 48]⟩
abbrev S3200000 : Shape := ⟨1, ![3200000]⟩
abbrev S1 : Shape := ⟨1, ![1]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S2x16 : Shape := ⟨2, ![2, 16]⟩
abbrev S16x2 : Shape := ⟨2, ![16, 2]⟩
abbrev S16x4 : Shape := ⟨2, ![16, 4]⟩
abbrev S100000x2 : Shape := ⟨2, ![100000, 2]⟩
abbrev S100000x4 : Shape := ⟨2, ![100000, 4]⟩
abbrev S5000x16 : Shape := ⟨2, ![5000, 16]⟩
abbrev S5000x1 : Shape := ⟨2, ![5000, 1]⟩
abbrev S5000x2 : Shape := ⟨2, ![5000, 2]⟩
abbrev S5000x4 : Shape := ⟨2, ![5000, 4]⟩
abbrev S3200000x4 : Shape := ⟨2, ![3200000, 4]⟩
abbrev S3200000x2 : Shape := ⟨2, ![3200000, 2]⟩

abbrev nBuf : Space → Nat
  | .hbm => 100
  | .vmem => 18
  | .smem => 0
  | _ => 0

abbrev bufTy : (tb : Table) → Fin (tcTables nBuf tb) → BufTy
  | .hbm, ⟨0, _⟩ => ⟨S100000x16, .f32⟩
  | .hbm, ⟨1, _⟩ => ⟨S2x48, .f32⟩
  | .hbm, ⟨2, _⟩ => ⟨S3200000, .i32⟩
  | .hbm, ⟨3, _⟩ => ⟨S3200000, .i32⟩
  | .hbm, ⟨4, _⟩ => ⟨S1, .f32⟩
  | .hbm, ⟨5, _⟩ => ⟨S_, .f32⟩
  | .hbm, ⟨6, _⟩ => ⟨S3200000, .f32⟩
  | .hbm, ⟨7, _⟩ => ⟨S_, .f32⟩
  | .hbm, ⟨8, _⟩ => ⟨S100000, .f32⟩
  | .hbm, ⟨9, _⟩ => ⟨S3200000x1, .i32⟩
  | .hbm, ⟨10, _⟩ => ⟨S100000, .f32⟩
  | .hbm, ⟨11, _⟩ => ⟨S_, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S_, .f32⟩
  | .hbm, ⟨20, _⟩ => ⟨S1, .f32⟩
  | .hbm, ⟨21, _⟩ => ⟨S1, .f32⟩
  | .hbm, ⟨22, _⟩ => ⟨S_, .f32⟩
  | .hbm, ⟨23, _⟩ => ⟨S2x16, .f32⟩
  | .hbm, ⟨24, _⟩ => ⟨S16x2, .f32⟩
  | .hbm, ⟨25, _⟩ => ⟨S2x16, .f32⟩
  | .hbm, ⟨26, _⟩ => ⟨S16x2, .f32⟩
  | .hbm, ⟨27, _⟩ => ⟨S2x16, .f32⟩
  | .hbm, ⟨28, _⟩ => ⟨S16x2, .f32⟩
  | .hbm, ⟨29, _⟩ => ⟨S_, .f32⟩
  | .hbm, ⟨30, _⟩ => ⟨S_, .f32⟩
  | .hbm, ⟨31, _⟩ => ⟨S16x2, .f32⟩
  | .hbm, ⟨32, _⟩ => ⟨S16x2, .f32⟩
  | .hbm, ⟨33, _⟩ => ⟨S16x2, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S16x2, .f32⟩
  | .hbm, ⟨42, _⟩ => ⟨S16x2, .f32⟩
  | .hbm, ⟨43, _⟩ => ⟨S16x2, .f32⟩
  | .hbm, ⟨44, _⟩ => ⟨S_, .f32⟩
  | .hbm, ⟨45, _⟩ => ⟨S16x2, .f32⟩
  | .hbm, ⟨46, _⟩ => ⟨S16x2, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S16x2, .f32⟩
  | .hbm, ⟨53, _⟩ => ⟨S16x2, .f32⟩
  | .hbm, ⟨54, _⟩ => ⟨S16x2, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S16x2, .f32⟩
  | .hbm, ⟨59, _⟩ => ⟨S16x2, .f32⟩
  | .hbm, ⟨60, _⟩ => ⟨S16x2, .bf16⟩
  | .hbm, ⟨61, _⟩ => ⟨S16x4, .f32⟩
  | .hbm, ⟨62, _⟩ => ⟨S16x4, .bf16⟩
  | .hbm, ⟨63, _⟩ => ⟨S100000x2, .f32⟩
  | .hbm, ⟨64, _⟩ => ⟨S100000x4, .f32⟩
  | .hbm, ⟨65, _⟩ => ⟨S_, .i32⟩
  | .hbm, ⟨66, _⟩ => ⟨S3200000, .i32⟩
  | .hbm, ⟨67, _⟩ => ⟨S3200000, .i1⟩
  | .hbm, ⟨68, _⟩ => ⟨S_, .i32⟩
  | .hbm, ⟨69, _⟩ => ⟨S3200000, .i32⟩
  | .hbm, ⟨70, _⟩ => ⟨S3200000, .i32⟩
  | .hbm, ⟨71, _⟩ => ⟨S3200000, .i32⟩
  | .hbm, ⟨72, _⟩ => ⟨S3200000x1, .i32⟩
  | .hbm, ⟨73, _⟩ => ⟨S3200000x4, .f32⟩
  | .hbm, ⟨74, _⟩ => ⟨S_, .f32⟩
  | .hbm, ⟨75, _⟩ => ⟨S100000x4, .f32⟩
  | .hbm, ⟨76, _⟩ => ⟨S3200000x1, .i32⟩
  | .hbm, ⟨77, _⟩ => ⟨S100000x4, .f32⟩
  | .hbm, ⟨78, _⟩ => ⟨S100000x4, .f32⟩
  | .hbm, ⟨79, _⟩ => ⟨S100000x4, .f32⟩
  | .hbm, ⟨80, _⟩ => ⟨S100000x2, .f32⟩
  | .hbm, ⟨81, _⟩ => ⟨S100000x2, .f32⟩
  | .hbm, ⟨82, _⟩ => ⟨S100000x2, .f32⟩
  | .hbm, ⟨83, _⟩ => ⟨S100000x2, .f32⟩
  | .hbm, ⟨84, _⟩ => ⟨S_, .i32⟩
  | .hbm, ⟨85, _⟩ => ⟨S3200000, .i32⟩
  | .hbm, ⟨86, _⟩ => ⟨S3200000, .i1⟩
  | .hbm, ⟨87, _⟩ => ⟨S_, .i32⟩
  | .hbm, ⟨88, _⟩ => ⟨S3200000, .i32⟩
  | .hbm, ⟨89, _⟩ => ⟨S3200000, .i32⟩
  | .hbm, ⟨90, _⟩ => ⟨S3200000, .i32⟩
  | .hbm, ⟨91, _⟩ => ⟨S3200000x1, .i32⟩
  | .hbm, ⟨92, _⟩ => ⟨S3200000x2, .f32⟩
  | .hbm, ⟨93, _⟩ => ⟨S_, .f32⟩
  | .hbm, ⟨94, _⟩ => ⟨S100000x2, .f32⟩
  | .hbm, ⟨95, _⟩ => ⟨S3200000x1, .i32⟩
  | .hbm, ⟨96, _⟩ => ⟨S100000x2, .f32⟩
  | .hbm, ⟨97, _⟩ => ⟨S100000x2, .f32⟩
  | .hbm, ⟨98, _⟩ => ⟨S100000x2, .f32⟩
  | .hbm, ⟨99, _⟩ => ⟨S100000x2, .f32⟩
  | .local _ .vmem, ⟨0, _⟩ => ⟨S5000x16, .f32⟩
  | .local _ .vmem, ⟨1, _⟩ => ⟨S5000x16, .f32⟩
  | .local _ .vmem, ⟨2, _⟩ => ⟨S5000x1, .f32⟩
  | .local _ .vmem, ⟨3, _⟩ => ⟨S5000x1, .f32⟩
  | .local _ .vmem, ⟨4, _⟩ => ⟨S16x2, .bf16⟩
  | .local _ .vmem, ⟨5, _⟩ => ⟨S16x4, .bf16⟩
  | .local _ .vmem, ⟨6, _⟩ => ⟨S5000x2, .f32⟩
  | .local _ .vmem, ⟨7, _⟩ => ⟨S5000x2, .f32⟩
  | .local _ .vmem, ⟨8, _⟩ => ⟨S5000x4, .f32⟩
  | .local _ .vmem, ⟨9, _⟩ => ⟨S5000x4, .f32⟩
  | .local _ .vmem, ⟨10, _⟩ => ⟨S5000x2, .f32⟩
  | .local _ .vmem, ⟨11, _⟩ => ⟨S5000x2, .f32⟩
  | .local _ .vmem, ⟨12, _⟩ => ⟨S5000x2, .f32⟩
  | .local _ .vmem, ⟨13, _⟩ => ⟨S5000x2, .f32⟩
  | .local _ .vmem, ⟨14, _⟩ => ⟨S5000x2, .f32⟩
  | .local _ .vmem, ⟨15, _⟩ => ⟨S5000x2, .f32⟩
  | .local _ .vmem, ⟨16, _⟩ => ⟨S5000x2, .f32⟩
  | .local _ .vmem, ⟨17, _⟩ => ⟨S5000x2, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_cst_9 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_10 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44_0 : Ref sig .tc := ⟨.hbm, 63, rfl⟩
abbrev main_v44_1 : Ref sig .tc := ⟨.hbm, 64, rfl⟩
abbrev main_c : Ref sig .tc := ⟨.hbm, 65, rfl⟩
abbrev main_v45 : Ref sig .tc := ⟨.hbm, 66, rfl⟩
abbrev main_v46 : Ref sig .tc := ⟨.hbm, 67, rfl⟩
abbrev main_c_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_13 : Ref sig .tc := ⟨.hbm, 84, rfl⟩
abbrev main_v61 : Ref sig .tc := ⟨.hbm, 85, rfl⟩
abbrev main_v62 : Ref sig .tc := ⟨.hbm, 86, rfl⟩
abbrev main_c_14 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_15 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x2 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x4 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S_S1 : S_.BroadcastsInDim S1 (![] : Fin 0 → Fin S1.rank)
  shapeCasts_S1_S_ : S1.ShapeCasts S_
  slices_S2x48_S2x16_0_0 : S2x48.Slices ![0, 0] S2x16
  transposes_S2x16_S16x2_1_0 : S2x16.Transposes [1, 0] S16x2
  slices_S2x48_S2x16_0_16 : S2x48.Slices ![0, 16] S2x16
  slices_S2x48_S2x16_0_32 : S2x48.Slices ![0, 32] S2x16
  bcast_S_S16x2 : S_.BroadcastsInDim S16x2 (![] : Fin 0 → Fin S16x2.rank)
  bitsLt_bf16_f32 : FTy.bits .bf16 < FTy.bits .f32
  concatenates_S16x2_S16x2_S16x4_d1 : Shape.Concatenates [S16x2, S16x2] S16x4 1
  inb_S5000x16_S5000x16_0_0 : ∀ a, (![0, 0] : Fin 2 → Nat) a + S5000x16.size a ≤ S5000x16.size a
  h_S5000x16 : 0 < S5000x16.numel
  inb_S16x2_S16x2_0_0 : ∀ a, (![0, 0] : Fin 2 → Nat) a + S16x2.size a ≤ S16x2.size a
  h_S16x2 : 0 < S16x2.numel
  shapeCasts_S16x2_S16x2 : S16x2.ShapeCasts S16x2
  inb_S16x4_S16x4_0_0 : ∀ a, (![0, 0] : Fin 2 → Nat) a + S16x4.size a ≤ S16x4.size a
  h_S16x4 : 0 < S16x4.numel
  shapeCasts_S16x4_S16x4 : S16x4.ShapeCasts S16x4
  inb_S5000x2_S5000x2_0_0 : ∀ a, (![0, 0] : Fin 2 → Nat) a + S5000x2.size a ≤ S5000x2.size a
  h_S5000x2 : 0 < S5000x2.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x4 : S5000x1.Broadcasts S5000x4
  inb_S5000x4_S5000x4_0_0 : ∀ a, (![0, 0] : Fin 2 → Nat) a + S5000x4.size a ≤ S5000x4.size a
  h_S5000x4 : 0 < S5000x4.numel
  bcast_S_S100000x4 : S_.BroadcastsInDim S100000x4 (![] : Fin 0 → Fin S100000x4.rank)
  bcast_S100000x1_S100000x4_0_1 : S100000x1.BroadcastsInDim S100000x4 (![0, 1] : Fin 2 → Fin S100000x4.rank)
  slices_S100000x4_S100000x2_0_0 : S100000x4.Slices ![0, 0] S100000x2
  slices_S100000x4_S100000x2_0_2 : S100000x4.Slices ![0, 2] S100000x2
  bcast_S100000x1_S100000x2_0_1 : S100000x1.BroadcastsInDim S100000x2 (![0, 1] : Fin 2 → Fin S100000x2.rank)
  bcast_S_S100000x2 : S_.BroadcastsInDim S100000x2 (![] : Fin 0 → Fin S100000x2.rank)
  shapeCasts_S5000x2_S5000x2 : S5000x2.ShapeCasts S5000x2
  scatter_S100000_S3200000x1_S3200000_n_0_0_1_wf : ScatterDims.WF S100000 S3200000x1 S3200000 [] [0] [0] 1
  dot_S5000x16_S16x2_S5000x2_1_0_0_1_n_n_wf : DotDims.WF S5000x16 S16x2 S5000x2 [1] [0] [0] [1] [] []
  dot_S5000x16_S16x4_S5000x4_1_0_0_1_n_n_wf : DotDims.WF S5000x16 S16x4 S5000x4 [1] [0] [0] [1] [] []
  gather_S100000x4_S3200000x1_S3200000x4_1_0_n_n_0_1_14_wf : GatherDims.WF S100000x4 S3200000x1 S3200000x4 [1] [0] [] [0] [] 1 ![1, 4]
  scatter_S100000x4_S3200000x1_S3200000x4_1_0_0_1_wf : ScatterDims.WF S100000x4 S3200000x1 S3200000x4 [1] [0] [0] 1
  gather_S100000x2_S3200000x1_S3200000x2_1_0_n_n_0_1_12_wf : GatherDims.WF S100000x2 S3200000x1 S3200000x2 [1] [0] [] [0] [] 1 ![1, 2]
  scatter_S100000x2_S3200000x1_S3200000x2_1_0_0_1_wf : ScatterDims.WF S100000x2 S3200000x1 S3200000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S100000x16.size a
  hwx0_0 : ∀ i : grid0.Coords, EltTy.bits .f32 = 32 ∨ (Rect.block (s := S100000x16) S5000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x2.size a ≤ S16x2.size a
  hwx0_2 : ∀ i : grid0.Coords, EltTy.bits .bf16 = 32 ∨ (Rect.block (s := S16x2) S16x2.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x4.size a ≤ S16x4.size a
  hwx0_3 : ∀ i : grid0.Coords, EltTy.bits .bf16 = 32 ∨ (Rect.block (s := S16x4) S16x4.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x2.size a ≤ S100000x2.size a
  hwx0_4 : ∀ i : grid0.Coords, EltTy.bits .f32 = 32 ∨ (Rect.block (s := S100000x2) S5000x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x4.size a ≤ S100000x4.size a
  hwx0_5 : ∀ i : grid0.Coords, EltTy.bits .f32 = 32 ∨ (Rect.block (s := S100000x4) S5000x4.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x2.size a ≤ S100000x2.size a
  hwx1_0 : ∀ i : grid1.Coords, EltTy.bits .f32 = 32 ∨ (Rect.block (s := S100000x2) S5000x2.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x2.size a ≤ S100000x2.size a
  hwx1_1 : ∀ i : grid1.Coords, EltTy.bits .f32 = 32 ∨ (Rect.block (s := S100000x2) S5000x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x2.size a ≤ S100000x2.size a
  hwx1_2 : ∀ i : grid1.Coords, EltTy.bits .f32 = 32 ∨ (Rect.block (s := S100000x2) S5000x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x2.size a ≤ S100000x2.size a
  hwx1_3 : ∀ i : grid1.Coords, EltTy.bits .f32 = 32 ∨ (Rect.block (s := S100000x2) S5000x2.size (cc1_transform_3 i) (hinb1_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S5000x16_S16x2_S5000x2_1_0_0_1_n_n : DotDims S5000x16 S16x2 S5000x2 where
  lhsContracting := [1]
  rhsContracting := [0]
  lhsNonContracting := [0]
  rhsNonContracting := [1]
  lhsBatch := []
  rhsBatch := []
  wf := dot_S5000x16_S16x2_S5000x2_1_0_0_1_n_n_wf
def dot_S5000x16_S16x4_S5000x4_1_0_0_1_n_n : DotDims S5000x16 S16x4 S5000x4 where
  lhsContracting := [1]
  rhsContracting := [0]
  lhsNonContracting := [0]
  rhsNonContracting := [1]
  lhsBatch := []
  rhsBatch := []
  wf := dot_S5000x16_S16x4_S5000x4_1_0_0_1_n_n_wf
def gather_S100000x4_S3200000x1_S3200000x4_1_0_n_n_0_1_14 : GatherDims S100000x4 S3200000x1 S3200000x4 where
  offsetDims := [1]
  collapsedSliceDims := [0]
  operandBatchingDims := []
  startIndicesBatchingDims := []
  startIndexMap := [0]
  indexVectorDim := 1
  sliceSizes := ![1, 4]
  wf := gather_S100000x4_S3200000x1_S3200000x4_1_0_n_n_0_1_14_wf
def scatter_S100000x4_S3200000x1_S3200000x4_1_0_0_1 : ScatterDims S100000x4 S3200000x1 S3200000x4 where
  updateWindowDims := [1]
  insertedWindowDims := [0]
  scatterDimsToOperandDims := [0]
  indexVectorDim := 1
  wf := scatter_S100000x4_S3200000x1_S3200000x4_1_0_0_1_wf
def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S16x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S16x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v44_0) S5000x2.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v44_1) S5000x4.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44_0) S5000x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S5000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v72) S5000x2.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v73) S5000x2.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x16 : Shape := ⟨2, ![100000, 16]⟩
abbrev S2x48 : Shape := ⟨2, ![2, 48]⟩
abbrev S3200000 : Shape := ⟨1, ![3200000]⟩
abbrev S1 : Shape := ⟨1, ![1]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S1x1 : Shape := ⟨2, ![1, 1]⟩
abbrev S3200000x16 : Shape := ⟨2, ![3200000, 16]⟩
abbrev S100000x48 : Shape := ⟨2, ![100000, 48]⟩
abbrev S48x2 : Shape := ⟨2, ![48, 2]⟩
abbrev S100000x2 : Shape := ⟨2, ![100000, 2]⟩

abbrev nBuf : Space → Nat
  | .hbm => 87
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S2x48, .f32⟩
  | .hbm, ⟨2, _⟩ => ⟨S3200000, .i32⟩
  | .hbm, ⟨3, _⟩ => ⟨S3200000, .i32⟩
  | .hbm, ⟨4, _⟩ => ⟨S1, .f32⟩
  | .hbm, ⟨5, _⟩ => ⟨S_, .f32⟩
  | .hbm, ⟨6, _⟩ => ⟨S3200000, .f32⟩
  | .hbm, ⟨7, _⟩ => ⟨S_, .f32⟩
  | .hbm, ⟨8, _⟩ => ⟨S100000, .f32⟩
  | .hbm, ⟨9, _⟩ => ⟨S3200000x1, .i32⟩
  | .hbm, ⟨10, _⟩ => ⟨S100000, .f32⟩
  | .hbm, ⟨11, _⟩ => ⟨S_, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S_, .f32⟩
  | .hbm, ⟨20, _⟩ => ⟨S1, .f32⟩
  | .hbm, ⟨21, _⟩ => ⟨S1, .f32⟩
  | .hbm, ⟨22, _⟩ => ⟨S1x1, .f32⟩
  | .hbm, ⟨23, _⟩ => ⟨S1x1, .f32⟩
  | .hbm, ⟨24, _⟩ => ⟨S100000x16, .f32⟩
  | .hbm, ⟨25, _⟩ => ⟨S100000x16, .f32⟩
  | .hbm, ⟨26, _⟩ => ⟨S_, .i32⟩
  | .hbm, ⟨27, _⟩ => ⟨S3200000, .i32⟩
  | .hbm, ⟨28, _⟩ => ⟨S3200000, .i1⟩
  | .hbm, ⟨29, _⟩ => ⟨S_, .i32⟩
  | .hbm, ⟨30, _⟩ => ⟨S3200000, .i32⟩
  | .hbm, ⟨31, _⟩ => ⟨S3200000, .i32⟩
  | .hbm, ⟨32, _⟩ => ⟨S3200000, .i32⟩
  | .hbm, ⟨33, _⟩ => ⟨S3200000x1, .i32⟩
  | .hbm, ⟨34, _⟩ => ⟨S3200000x16, .f32⟩
  | .hbm, ⟨35, _⟩ => ⟨S_, .f32⟩
  | .hbm, ⟨36, _⟩ => ⟨S100000x16, .f32⟩
  | .hbm, ⟨37, _⟩ => ⟨S3200000x1, .i32⟩
  | .hbm, ⟨38, _⟩ => ⟨S100000x16, .f32⟩
  | .hbm, ⟨39, _⟩ => ⟨S100000x16, .f32⟩
  | .hbm, ⟨40, _⟩ => ⟨S100000x16, .f32⟩
  | .hbm, ⟨41, _⟩ => ⟨S100000x16, .f32⟩
  | .hbm, ⟨42, _⟩ => ⟨S100000x16, .f32⟩
  | .hbm, ⟨43, _⟩ => ⟨S_, .f32⟩
  | .hbm, ⟨44, _⟩ => ⟨S1x1, .f32⟩
  | .hbm, ⟨45, _⟩ => ⟨S1x1, .f32⟩
  | .hbm, ⟨46, _⟩ => ⟨S100000x16, .f32⟩
  | .hbm, ⟨47, _⟩ => ⟨S100000x16, .f32⟩
  | .hbm, ⟨48, _⟩ => ⟨S100000x16, .f32⟩
  | .hbm, ⟨49, _⟩ => ⟨S_, .f32⟩
  | .hbm, ⟨50, _⟩ => ⟨S1x1, .f32⟩
  | .hbm, ⟨51, _⟩ => ⟨S1x1, .f32⟩
  | .hbm, ⟨52, _⟩ => ⟨S100000x16, .f32⟩
  | .hbm, ⟨53, _⟩ => ⟨S100000x16, .f32⟩
  | .hbm, ⟨54, _⟩ => ⟨S_, .i32⟩
  | .hbm, ⟨55, _⟩ => ⟨S3200000, .i32⟩
  | .hbm, ⟨56, _⟩ => ⟨S3200000, .i1⟩
  | .hbm, ⟨57, _⟩ => ⟨S_, .i32⟩
  | .hbm, ⟨58, _⟩ => ⟨S3200000, .i32⟩
  | .hbm, ⟨59, _⟩ => ⟨S3200000, .i32⟩
  | .hbm, ⟨60, _⟩ => ⟨S3200000, .i32⟩
  | .hbm, ⟨61, _⟩ => ⟨S3200000x1, .i32⟩
  | .hbm, ⟨62, _⟩ => ⟨S3200000x16, .f32⟩
  | .hbm, ⟨63, _⟩ => ⟨S_, .f32⟩
  | .hbm, ⟨64, _⟩ => ⟨S100000x16, .f32⟩
  | .hbm, ⟨65, _⟩ => ⟨S3200000x1, .i32⟩
  | .hbm, ⟨66, _⟩ => ⟨S100000x16, .f32⟩
  | .hbm, ⟨67, _⟩ => ⟨S100000x16, .f32⟩
  | .hbm, ⟨68, _⟩ => ⟨S100000x16, .f32⟩
  | .hbm, ⟨69, _⟩ => ⟨S100000x16, .f32⟩
  | .hbm, ⟨70, _⟩ => ⟨S100000x16, .f32⟩
  | .hbm, ⟨71, _⟩ => ⟨S_, .f32⟩
  | .hbm, ⟨72, _⟩ => ⟨S1x1, .f32⟩
  | .hbm, ⟨73, _⟩ => ⟨S1x1, .f32⟩
  | .hbm, ⟨74, _⟩ => ⟨S_, .f32⟩
  | .hbm, ⟨75, _⟩ => ⟨S1x1, .f32⟩
  | .hbm, ⟨76, _⟩ => ⟨S1x1, .f32⟩
  | .hbm, ⟨77, _⟩ => ⟨S100000x16, .f32⟩
  | .hbm, ⟨78, _⟩ => ⟨S100000x16, .f32⟩
  | .hbm, ⟨79, _⟩ => ⟨S100000x16, .f32⟩
  | .hbm, ⟨80, _⟩ => ⟨S100000x16, .f32⟩
  | .hbm, ⟨81, _⟩ => ⟨S100000x48, .f32⟩
  | .hbm, ⟨82, _⟩ => ⟨S48x2, .f32⟩
  | .hbm, ⟨83, _⟩ => ⟨S100000x2, .f32⟩
  | .hbm, ⟨84, _⟩ => ⟨S_, .f32⟩
  | .hbm, ⟨85, _⟩ => ⟨S100000x2, .f32⟩
  | .hbm, ⟨86, _⟩ => ⟨S100000x2, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_8 : Ref sig .tc := ⟨.hbm, 54, rfl⟩
abbrev main_v37 : Ref sig .tc := ⟨.hbm, 55, rfl⟩
abbrev main_v38 : Ref sig .tc := ⟨.hbm, 56, rfl⟩
abbrev main_c_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_v52 : Ref sig .tc := ⟨.hbm, 73, rfl⟩
abbrev main_cst_12 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_call1_cst : Ref sig .tc := ⟨.hbm, 84, rfl⟩
abbrev main_call1_v0 : Ref sig .tc := ⟨.hbm, 85, rfl⟩
abbrev main_v62 : Ref sig .tc := ⟨.hbm, 86, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S_S1 : S_.BroadcastsInDim S1 (![] : Fin 0 → Fin S1.rank)
  bcast_S1_S1x1_1 : S1.BroadcastsInDim S1x1 (![1] : Fin 1 → Fin S1x1.rank)
  bcast_S100000x1_S100000x16_0_1 : S100000x1.BroadcastsInDim S100000x16 (![0, 1] : Fin 2 → Fin S100000x16.rank)
  bcast_S_S100000x16 : S_.BroadcastsInDim S100000x16 (![] : Fin 0 → Fin S100000x16.rank)
  bcast_S1x1_S100000x16_0_1 : S1x1.BroadcastsInDim S100000x16 (![0, 1] : Fin 2 → Fin S100000x16.rank)
  bcast_S_S1x1 : S_.BroadcastsInDim S1x1 (![] : Fin 0 → Fin S1x1.rank)
  concatenates_S100000x16_S100000x16_S100000x16_S100000x48_d1 : Shape.Concatenates [S100000x16, S100000x16, S100000x16] S100000x48 1
  transposes_S2x48_S48x2_1_0 : S2x48.Transposes [1, 0] S48x2
  bcast_S_S100000x2 : S_.BroadcastsInDim S100000x2 (![] : Fin 0 → Fin S100000x2.rank)
  scatter_S100000_S3200000x1_S3200000_n_0_0_1_wf : ScatterDims.WF S100000 S3200000x1 S3200000 [] [0] [0] 1
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x48_S48x2_S100000x2_1_0_0_1_n_n_wf : DotDims.WF S100000x48 S48x2 S100000x2 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x48_S48x2_S100000x2_1_0_0_1_n_n : DotDims S100000x48 S48x2 S100000x2 where
  lhsContracting := [1]
  rhsContracting := [0]
  lhsNonContracting := [0]
  rhsNonContracting := [1]
  lhsBatch := []
  rhsBatch := []
  wf := dot_S100000x48_S48x2_S100000x2_1_0_0_1_n_n_wf

class Facts : Prop extends Facts₀ where

variable [Facts]
-- ==== Proof.LibPlainDot.lean ====
/-
  General facts about a matrix product of the plain kind, read at one entry on the extended reals.

  The product of an M x K left operand with a K x N right operand, no batch axis, the left contracted on its second
  axis and the right on its first, accumulated into the zero array: entry (a, j) is the sum over k of
  left (a, k) * right (k, j).  The contraction index of such a product has one axis, of extent K, and is re-indexed by
  its one coordinate; the operand indices at output (a, j) and contraction k are (a, k) and (k, j).

  A column [M, 1] broadcast along the second axis to [M, N] reads, at (a, j), the column's entry (a, 0).

  A record of dimension numbers printed with a program is this plain one whenever its six lists are
  [1], [0], [0], [1], [], [] (the seventh field is a proof), by reflexivity; the lemmas are stated for
  DotDims.plain M K N so that they serve every such record.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable (M K N : Nat)

/-- The left operand's row coordinate at output index j is j's row. -/
theorem plain_lhs_row (j : (⟨2, ![M, N]⟩ : Shape).Idx) (q : (DotDims.plain M K N).contr.Idx) :
    ((DotDims.plain M K N).lhsIdx j q 0).val = (j 0).val := rfl
/-- The left operand's column coordinate is the contraction index's one coordinate. -/
theorem plain_lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's row coordinate is the contraction index's one coordinate. -/
theorem plain_rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- The right operand's column coordinate at output index j is j's column. -/
theorem plain_rhs_col (j : (⟨2, ![M, N]⟩ : Shape).Idx) (q : (DotDims.plain M K N).contr.Idx) :
    ((DotDims.plain M K N).rhsIdx j q 1).val = (j 1).val := rfl

/-- A plain matrix product into the zero accumulator, at entry (a, j): the sum over k of W (a, k) * X (k, j). -/
theorem matmul_plain_zero (W : FVec Ideal ⟨2, ![M, K]⟩ .f32) (X : FVec Ideal ⟨2, ![K, N]⟩ .f32) (a : Fin M) (j : Fin N) :
    matmul (DotDims.plain M K N) none W X (constant ⟨2, ![M, N]⟩ .f32 0x00000000#32) (ix2 a j)
      = ∑ k : Fin K, W (ix2 a k) * X (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a j) ((contrEquiv1 (DotDims.plain M K N) K rfl rfl).symm k) = ix2 a k :=
    funext fun b => Fin.ext (by
      match b with
      | ⟨0, _⟩ => exact plain_lhs_row M K N _ _
      | ⟨1, _⟩ => exact (plain_lhs_col M K N _ _).trans hk)
  have er : (DotDims.plain M K N).rhsIdx (ix2 a j) ((contrEquiv1 (DotDims.plain M K N) K rfl rfl).symm k) = ix2 k j :=
    funext fun b => Fin.ext (by
      match b with
      | ⟨0, _⟩ => exact (plain_rhs_row M K N _ _).trans hk
      | ⟨1, _⟩ => exact plain_rhs_col M K N _ _)
  rw [el, er]

/-- A column broadcast along the second axis reads the column's entry of the same row. -/
theorem broadcast_col {α : Type} (b : (⟨2, ![M, 1]⟩ : Shape).Idx → α) (hb : (⟨2, ![M, 1]⟩ : Shape).Broadcasts ⟨2, ![M, N]⟩)
    (a : Fin M) (j : Fin N) : broadcastTo ⟨2, ![M, N]⟩ b hb (ix2 a j) = b (ix2 a 0) :=
  broadcastTo_apply b hb (ix2 a j) (ix2 a 0) (fun ax => by
    match ax with
    | ⟨0, _⟩ =>
      show a.val = if M = 1 then 0 else a.val
      split
      · have := a.isLt; omega
      · rfl
    | ⟨1, _⟩ =>
      show 0 = if (1 : Nat) = 1 then 0 else j.val
      rw [if_pos rfl])

end Cert.LibPlainDot

end
-- ==== Proof.LibPlainAny.lean ====
/-
  A plain matrix product on the extended reals, whatever float formats its operands carry.

  The product of an M x K left operand with a K x N right operand (no batch axis, the left contracted on its
  second axis, the right on its first) has at entry (a, j) the value: sum over k of left (a, k) * right (k, j).
  On the extended reals a change of float format is the identity, so this reading does not depend on the
  operands' formats: it holds for a kernel's product of bf16 operands accumulated into the f32 zero array,
  and for the host's product, which has no accumulator, alike.

  The contraction index of a plain product has one axis of extent K; re-indexed by its one coordinate k, the
  operand indices at output (a, j) are (a, k) and (k, j).
-/
import proofs.«410256_j61907658605175_3_alg».proof.Proof.LibPlainDot

noncomputable section

namespace Cert.LibPlainAny

open Idealize.ShloMosaic Idealize.ShloMosaic.ValueIdx

variable (M K N : Nat)

/-- The left operand's index at output (a, j) and contraction coordinate k is (a, k). -/
theorem plain_lhsIdx (a : Fin M) (j : Fin N) (k : Fin K) :
    (DotDims.plain M K N).lhsIdx (ix2 a j) ((contrEquiv1 (DotDims.plain M K N) K rfl rfl).symm k) = ix2 a k :=
  funext fun b => Fin.ext (by
    have hk := contrEquiv1_symm_val (DotDims.plain M K N) K rfl rfl k
    match b with
    | ⟨0, _⟩ => exact Cert.LibPlainDot.plain_lhs_row M K N _ _
    | ⟨1, _⟩ => exact (Cert.LibPlainDot.plain_lhs_col M K N _ _).trans hk)

/-- The right operand's index at output (a, j) and contraction coordinate k is (k, j). -/
theorem plain_rhsIdx (a : Fin M) (j : Fin N) (k : Fin K) :
    (DotDims.plain M K N).rhsIdx (ix2 a j) ((contrEquiv1 (DotDims.plain M K N) K rfl rfl).symm k) = ix2 k j :=
  funext fun b => Fin.ext (by
    have hk := contrEquiv1_symm_val (DotDims.plain M K N) K rfl rfl k
    match b with
    | ⟨0, _⟩ => exact (Cert.LibPlainDot.plain_rhs_row M K N _ _).trans hk
    | ⟨1, _⟩ => exact Cert.LibPlainDot.plain_rhs_col M K N _ _)

/-- A kernel's plain product into the zero array, operands of any formats, at entry (a, j). -/
theorem matmul_plain_zero_any {φ₁ φ₂ : FTy} (W : FVec Ideal ⟨2, ![M, K]⟩ φ₁) (X : FVec Ideal ⟨2, ![K, N]⟩ φ₂)
    (a : Fin M) (j : Fin N) :
    matmul (DotDims.plain M K N) none W X (constant ⟨2, ![M, N]⟩ .f32 0x00000000#32) (ix2 a j)
      = ∑ k : Fin K, (W (ix2 a k) : EReal) * (X (ix2 k j) : EReal) := by
  simp only [matmul]
  rw [Ideal.matmul_constant_zero_apply, ← Equiv.sum_comp (contrEquiv1 (DotDims.plain M K N) K rfl rfl).symm]
  refine Finset.sum_congr rfl fun k _ => ?_
  rw [plain_lhsIdx, plain_rhsIdx]

/-- The host's plain product, operands of any formats, at entry (a, j). -/
theorem dotGeneral_plain_any {φ₁ φ₂ : FTy} (W : FVec Ideal ⟨2, ![M, K]⟩ φ₁) (X : FVec Ideal ⟨2, ![K, N]⟩ φ₂)
    (a : Fin M) (j : Fin N) :
    Host.dotGeneral (DotDims.plain M K N) none W X (ix2 a j)
      = ∑ k : Fin K, (W (ix2 a k) : EReal) * (X (ix2 k j) : EReal) := by
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]

end Cert.LibPlainAny

end
-- ==== Proof.KRegion0.lean ====
/-
  Region 0 (the projection): what its two output arrays hold after the run, entry by entry.

  The region walks the 100000 rows of X in 20 blocks of 5000 rows.  On each block it forms two matrix products
  with the small weight matrices, which it holds whole: Z0 = X · A0 (two columns) and X · [A1 | A2] (four columns),
  the second scaled row by row by the node's scale nu.  On the extended reals the change of float format before the
  products is the identity, so entry (i, j) of the first output is the sum over k of X (i, k) · A0 (k, j), and of the
  second that sum with [A1 | A2] for A0, times nu (i).

  Each block's result depends on the rows of that block only, and the 20 blocks tile the rows, so each output
  array is ONE function of the arrays the region reads: a block's row a at point t is row 5000 t + a of the array,
  and the row i of the array lies in the block of point i / 5000.
-/
import proofs.«410256_j61907658605175_3_alg».proof.Proof.Gen.KernelIdeal.Frame
import proofs.«410256_j61907658605175_3_alg».proof.Proof.LibPlainAny
import Idealize.ShloMosaic.Lib.ValueIdx
import Idealize.ShloMosaic.Lib.Pipeline.Value
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem

/-! ## The two block results at an entry -/

/-- The offsets of a whole-block access are zero on both axes. -/
theorem offsets_zero : (![0, 0] : Fin 2 → Nat) = fun _ => 0 := funext fun a => by fin_cases a <;> rfl

/-- A block of the first output: entry (a, j) is the sum over k of x (a, k) · w (k, j). -/
theorem pay2_entry (x0 : Vec Ideal S5000x16 .f32) (x2 : Vec Ideal S16x2 .bf16) (a : Fin 5000) (j : Fin 2) :
    (k0_pay2 x0 x2 (ix2 a j) : EReal) = ∑ k : Fin 16, (x0 (ix2 a k) : EReal) * (x2 (ix2 k j) : EReal) := by
  show matmul (F := Ideal) (DotDims.plain 5000 16 2) none (truncf .bf16 (x0 : FVec Ideal S5000x16 .f32) bitsLt_bf16_f32)
      (shapeCast S16x2 (x2 : FVec Ideal S16x2 .bf16) shapeCasts_S16x2_S16x2)
      (constant S5000x2 .f32 0x00000000#32) (ix2 a j) = _
  rw [shapeCast_self]
  exact Cert.LibPlainAny.matmul_plain_zero_any 5000 16 2 (truncf .bf16 (x0 : FVec Ideal S5000x16 .f32) bitsLt_bf16_f32) x2 a j

/-- A block of the second output: entry (a, j) is the sum over k of x (a, k) · w (k, j), times the scale of row a. -/
theorem pay3_entry (x0 : Vec Ideal S5000x16 .f32) (x3 : Vec Ideal S16x4 .bf16) (x1 : Vec Ideal S5000x1 .f32)
    (a : Fin 5000) (j : Fin 4) :
    (k0_pay3 x0 x3 x1 (ix2 a j) : EReal)
      = (∑ k : Fin 16, (x0 (ix2 a k) : EReal) * (x3 (ix2 k j) : EReal)) * (x1 (ix2 a 0) : EReal) := by
  show mulf (F := Ideal) (matmul (F := Ideal) (DotDims.plain 5000 16 4) none (truncf .bf16 (x0 : FVec Ideal S5000x16 .f32) bitsLt_bf16_f32)
      (shapeCast S16x4 (x3 : FVec Ideal S16x4 .bf16) shapeCasts_S16x4_S16x4)
      (constant S5000x4 .f32 0x00000000#32))
      (broadcastTo S5000x4 (shapeCast S5000x1 (x1 : FVec Ideal S5000x1 .f32) shapeCasts_S5000x1_S5000x1) broadcasts_S5000x1_S5000x4) (ix2 a j) = _
  rw [mulf_apply, shapeCast_self, shapeCast_self, Cert.LibPlainDot.broadcast_col 5000 4 x1 broadcasts_S5000x1_S5000x4 a j,
    Cert.LibPlainAny.matmul_plain_zero_any 5000 16 4 (truncf .bf16 (x0 : FVec Ideal S5000x16 .f32) bitsLt_bf16_f32) x3 a j]
  rfl

variable (V : (c : Dev nD) → (b : Ref sig .tc) → Buf (Elt Ideal) ((c : Thread nD τ).loc b))

/-- The arrays the region reads, as it finds them, and the two it writes, after the run, each at its literal type. -/
abbrev xarr (c : Dev nD) : FVec Ideal S100000x16 .f32 := V c main_arg0
abbrev nuarr (c : Dev nD) : FVec Ideal S100000x1 .f32 := V c main_v7
abbrev a0arr (c : Dev nD) : FVec Ideal S16x2 .bf16 := V c main_v41
abbrev mbcarr (c : Dev nD) : FVec Ideal S16x4 .bf16 := V c main_v43
abbrev z0arr (c : Dev nD) : FVec Ideal S100000x2 .f32 := (dat0 (F := Ideal) V c).arrAt 4 cfg0.N
abbrev zsarr (c : Dev nD) : FVec Ideal S100000x4 .f32 := (dat0 (F := Ideal) V c).arrAt 5 cfg0.N

/-! ## The whole arrays the blocks are cut from -/

/-- X · W for a weight matrix W of N columns, entry by entry. -/
def proj {N : Nat} (X : FVec Ideal S100000x16 .f32) (W : FVec Ideal ⟨2, ![16, N]⟩ .bf16) : FVec Ideal ⟨2, ![100000, N]⟩ .f32 :=
  fun i => ∑ k : Fin 16, (X (ix2 (i 0) k) : EReal) * (W (ix2 k (i 1)) : EReal)

/-- (X · W) scaled row by row by the column nu. -/
def projScaled {N : Nat} (X : FVec Ideal S100000x16 .f32) (W : FVec Ideal ⟨2, ![16, N]⟩ .bf16) (nu : FVec Ideal S100000x1 .f32) :
    FVec Ideal ⟨2, ![100000, N]⟩ .f32 :=
  fun i => (∑ k : Fin 16, (X (ix2 (i 0) k) : EReal) * (W (ix2 k (i 1)) : EReal)) * (nu (ix2 (i 0) 0) : EReal)

/-! ## Where each window's block sits at a point of the grid -/

/-- The grid has 20 points. -/
theorem grid_points : cfg0.N = 20 := by decide

/-- The row-tiled windows are at block (t, 0) at point t, the two weight matrices at block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The block of X at point t is rows 5000 t … 5000 t + 4999 of X. -/
theorem x_block (c : Dev nD) (t : Fin cfg0.N) (y : S5000x16.Idx) (i : S100000x16.Idx)
    (h0 : (i 0).val = 5000 * t.val + (y 0).val) (h1 : (i 1).val = (y 1).val) :
    (iblk0 V c 0 t : Vec Ideal S5000x16 .f32) y = xarr V c i := by
  obtain ⟨e0, e1, -⟩ := block_index t
  unfold iblk0
  rw [View.read_apply]
  show V c main_arg0 _ = V c main_arg0 _
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 16 + 1 * (y 1).val = (i 1).val; rw [e1, h1]; omega

/-- The block of the scale column at point t is rows 5000 t … 5000 t + 4999 of it. -/
theorem nu_block (c : Dev nD) (t : Fin cfg0.N) (y : S5000x1.Idx) (i : S100000x1.Idx)
    (h0 : (i 0).val = 5000 * t.val + (y 0).val) (h1 : (i 1).val = (y 1).val) :
    (iblk0 V c 1 t : Vec Ideal S5000x1 .f32) y = nuarr V c i := by
  obtain ⟨-, -, e0, e1, -⟩ := block_index t
  unfold iblk0
  rw [View.read_apply]
  show V c main_v7 _ = V c main_v7 _
  congr 1
  funext a
  apply Fin.ext
  match a with
  | ⟨0, _⟩ => show win0_1.index t (0 : Fin 2) * 5000 + 1 * (y 0).val = (i 0).val; rw [e0, h0]; omega
  | ⟨1, _⟩ => show win0_1.index t (1 : Fin 2) * 1 + 1 * (y 1).val = (i 1).val; rw [e1, h1]; omega

/-- The block of A0 at every point is A0. -/
theorem a0_block (c : Dev nD) (t : Fin cfg0.N) (y : S16x2.Idx) (i : S16x2.Idx)
    (h0 : (i 0).val = (y 0).val) (h1 : (i 1).val = (y 1).val) :
    (iblk0 V c 2 t : Vec Ideal S16x2 .bf16) y = a0arr V c i := by
  obtain ⟨-, -, -, -, e0, e1, -⟩ := block_index t
  unfold iblk0
  rw [View.read_apply]
  show V c main_v41 _ = V c main_v41 _
  congr 1
  funext a
  apply Fin.ext
  match a with
  | ⟨0, _⟩ => show win0_2.index t (0 : Fin 2) * 16 + 1 * (y 0).val = (i 0).val; rw [e0, h0]; omega
  | ⟨1, _⟩ => show win0_2.index t (1 : Fin 2) * 2 + 1 * (y 1).val = (i 1).val; rw [e1, h1]; omega

/-- The block of [A1 | A2] at every point is [A1 | A2]. -/
theorem mbc_block (c : Dev nD) (t : Fin cfg0.N) (y : S16x4.Idx) (i : S16x4.Idx)
    (h0 : (i 0).val = (y 0).val) (h1 : (i 1).val = (y 1).val) :
    (iblk0 V c 3 t : Vec Ideal S16x4 .bf16) y = mbcarr V c i := by
  obtain ⟨-, -, -, -, -, -, e0, e1, -⟩ := block_index t
  unfold iblk0
  rw [View.read_apply]
  show V c main_v43 _ = V c main_v43 _
  congr 1
  funext a
  apply Fin.ext
  match a with
  | ⟨0, _⟩ => show win0_3.index t (0 : Fin 2) * 16 + 1 * (y 0).val = (i 0).val; rw [e0, h0]; omega
  | ⟨1, _⟩ => show win0_3.index t (1 : Fin 2) * 4 + 1 * (y 1).val = (i 1).val; rw [e1, h1]; omega

/-! ## What a point writes back, and the arrays after the run -/

/-- What point t writes back to the first output is block t of X · A0. -/
theorem z0_flushed (c : Dev nD) (t : Fin cfg0.N) :
    (dat0 (F := Ideal) V c).flushed 4 t = ((cfg0.win 4).blk t).view.read (Elt Ideal) (proj (xarr V c) (a0arr V c)) := by
  show (cfg0.win 4).cut (grid0.coords t) ((dat0 (F := Ideal) V c).after 4 t) = _
  rw [after0_4]
  unfold out0_4
  rw [View.canon_unit_zero offsets_zero]
  simp only [View.ld_unit_zero (S := S5000x16) offsets_zero, View.ld_unit_zero (S := S16x2) offsets_zero]
  obtain ⟨-, -, -, -, -, -, -, -, e0, e1, -⟩ := block_index t
  funext y
  obtain ⟨a, j, rfl⟩ : ∃ (a : Fin 5000) (j : Fin 2), y = ix2 a j := ⟨y 0, y 1, eq_ix2 y⟩
  refine (pay2_entry (iblk0 V c 0 t) (iblk0 V c 2 t) a j).trans ?_
  rw [View.read_apply]
  show _ = ∑ k : Fin 16, (xarr V c (ix2 ((((cfg0.win 4).blk t).view.emb (ix2 a j)) 0) k) : EReal)
      * (a0arr V c (ix2 k ((((cfg0.win 4).blk t).view.emb (ix2 a j)) 1)) : EReal)
  refine Finset.sum_congr rfl fun k _ => ?_
  have hx := x_block V c t (ix2 a k) (ix2 ((((cfg0.win 4).blk t).view.emb (ix2 a j)) 0) k)
    (by show win0_4.index t (0 : Fin 2) * 5000 + 1 * a.val = 5000 * t.val + a.val; rw [e0]; omega) rfl
  have hw := a0_block V c t (ix2 k j) (ix2 k ((((cfg0.win 4).blk t).view.emb (ix2 a j)) 1)) rfl
    (by show win0_4.index t (1 : Fin 2) * 2 + 1 * j.val = j.val; rw [e1]; omega)
  exact congrArg₂ (fun p q : EReal => p * q) hx hw

/-- An index of the first output lies in point t's block iff each coordinate is in the block's range on its axis. -/
theorem z0_mem_block (t : Fin cfg0.N) (i : S100000x2.Idx) :
    i ∈ ((cfg0.win 4).blk t).view.set ↔ ∀ a : Fin 2, win0_4.index t a * S5000x2.size a ≤ (i a).val ∧ (i a).val < win0_4.index t a * S5000x2.size a + S5000x2.size a := by
  show i ∈ ((View.whole main_v44_0).slice (win0_4.rect t)).set ↔ _
  rw [View.set_slice_whole, Rect.mem_set_unit]
  exact Iff.rfl

/-- Row i of the first output lies in the block of point i / 5000. -/
theorem z0_cover (i : S100000x2.Idx) :
    ∃ t : Fin cfg0.N, (cfg0.win 4).flush t = true ∧ i ∈ ((cfg0.win 4).blk t).view.set := by
  have hi0 : (i 0).val < 100000 := (i 0).isLt
  have hi1 : (i 1).val < 2 := (i 1).isLt
  have ht : (i 0).val / 5000 < cfg0.N := by rw [grid_points]; omega
  obtain ⟨-, -, -, -, -, -, -, -, e0, e1, -⟩ := block_index ⟨(i 0).val / 5000, ht⟩
  refine ⟨⟨(i 0).val / 5000, ht⟩, flush0_4 _, ?_⟩
  rw [z0_mem_block]
  intro a
  match a with
  | ⟨0, _⟩ =>
    show win0_4.index ⟨(i 0).val / 5000, ht⟩ (0 : Fin 2) * 5000 ≤ (i 0).val ∧ (i 0).val < win0_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_4.index ⟨(i 0).val / 5000, ht⟩ (1 : Fin 2) * 2 ≤ (i 1).val ∧ (i 1).val < win0_4.index ⟨(i 0).val / 5000, ht⟩ (1 : Fin 2) * 2 + 2
    rw [e1]; omega

/-- The first output after the run is X · A0. -/
theorem z0_final (c : Dev nD) : z0arr V c = proj (xarr V c) (a0arr V c) :=
  (dat0 (F := Ideal) V c).arrAt_eq_of_cover 4 (proj (xarr V c) (a0arr V c)) (fun t _ => z0_flushed V c t) z0_cover

/-- What point t writes back to the second output is block t of (X · [A1 | A2]) scaled by nu. -/
theorem zs_flushed (c : Dev nD) (t : Fin cfg0.N) :
    (dat0 (F := Ideal) V c).flushed 5 t
      = ((cfg0.win 5).blk t).view.read (Elt Ideal) (projScaled (xarr V c) (mbcarr V c) (nuarr V c)) := by
  show (cfg0.win 5).cut (grid0.coords t) ((dat0 (F := Ideal) V c).after 5 t) = _
  rw [after0_5]
  unfold out0_5
  rw [View.canon_unit_zero offsets_zero]
  simp only [View.ld_unit_zero (S := S5000x16) offsets_zero, View.ld_unit_zero (S := S16x4) offsets_zero,
    View.ld_unit_zero (S := S5000x1) offsets_zero]
  obtain ⟨-, -, -, -, -, -, -, -, -, -, e0, e1⟩ := block_index t
  funext y
  obtain ⟨a, j, rfl⟩ : ∃ (a : Fin 5000) (j : Fin 4), y = ix2 a j := ⟨y 0, y 1, eq_ix2 y⟩
  refine (pay3_entry (iblk0 V c 0 t) (iblk0 V c 3 t) (iblk0 V c 1 t) a j).trans ?_
  rw [View.read_apply]
  show _ = (∑ k : Fin 16, (xarr V c (ix2 ((((cfg0.win 5).blk t).view.emb (ix2 a j)) 0) k) : EReal)
      * (mbcarr V c (ix2 k ((((cfg0.win 5).blk t).view.emb (ix2 a j)) 1)) : EReal))
      * (nuarr V c (ix2 ((((cfg0.win 5).blk t).view.emb (ix2 a j)) 0) 0) : EReal)
  have hrow : ((((cfg0.win 5).blk t).view.emb (ix2 a j)) 0).val = 5000 * t.val + a.val := by
    show win0_5.index t (0 : Fin 2) * 5000 + 1 * a.val = 5000 * t.val + a.val; rw [e0]; omega
  have hcol : ((((cfg0.win 5).blk t).view.emb (ix2 a j)) 1).val = j.val := by
    show win0_5.index t (1 : Fin 2) * 4 + 1 * j.val = j.val; rw [e1]; omega
  have hnu := nu_block V c t (ix2 a 0) (ix2 ((((cfg0.win 5).blk t).view.emb (ix2 a j)) 0) 0) hrow rfl
  refine congrArg₂ (fun p q : EReal => p * q) (Finset.sum_congr rfl fun k _ => ?_) hnu
  have hx := x_block V c t (ix2 a k) (ix2 ((((cfg0.win 5).blk t).view.emb (ix2 a j)) 0) k) hrow rfl
  have hw := mbc_block V c t (ix2 k j) (ix2 k ((((cfg0.win 5).blk t).view.emb (ix2 a j)) 1)) rfl hcol
  exact congrArg₂ (fun p q : EReal => p * q) hx hw

/-- An index of the second output lies in point t's block iff each coordinate is in the block's range on its axis. -/
theorem zs_mem_block (t : Fin cfg0.N) (i : S100000x4.Idx) :
    i ∈ ((cfg0.win 5).blk t).view.set ↔ ∀ a : Fin 2, win0_5.index t a * S5000x4.size a ≤ (i a).val ∧ (i a).val < win0_5.index t a * S5000x4.size a + S5000x4.size a := by
  show i ∈ ((View.whole main_v44_1).slice (win0_5.rect t)).set ↔ _
  rw [View.set_slice_whole, Rect.mem_set_unit]
  exact Iff.rfl

/-- Row i of the second output lies in the block of point i / 5000. -/
theorem zs_cover (i : S100000x4.Idx) :
    ∃ t : Fin cfg0.N, (cfg0.win 5).flush t = true ∧ i ∈ ((cfg0.win 5).blk t).view.set := by
  have hi0 : (i 0).val < 100000 := (i 0).isLt
  have hi1 : (i 1).val < 4 := (i 1).isLt
  have ht : (i 0).val / 5000 < cfg0.N := by rw [grid_points]; omega
  obtain ⟨-, -, -, -, -, -, -, -, -, -, e0, e1⟩ := block_index ⟨(i 0).val / 5000, ht⟩
  refine ⟨⟨(i 0).val / 5000, ht⟩, flush0_5 _, ?_⟩
  rw [zs_mem_block]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ (1 : Fin 2) * 4 ≤ (i 1).val ∧ (i 1).val < win0_5.index ⟨(i 0).val / 5000, ht⟩ (1 : Fin 2) * 4 + 4
    rw [e1]; omega

/-- The second output after the run is (X · [A1 | A2]) scaled by nu. -/
theorem zs_final (c : Dev nD) : zsarr V c = projScaled (xarr V c) (mbcarr V c) (nuarr V c) :=
  (dat0 (F := Ideal) V c).arrAt_eq_of_cover 5 (projScaled (xarr V c) (mbcarr V c) (nuarr V c)) (fun t _ => zs_flushed V c t) zs_cover

/-! ## The two outputs, entry by entry -/

/-- Output window 4 (Z0 = X · A0): entry (i, j) is the sum over k of X (i, k) · A0 (k, j). -/
theorem z0_entry (c : Dev nD) (i : Fin 100000) (j : Fin 2) :
    (z0arr V c (ix2 i j) : EReal)
      = ∑ k : Fin 16, (xarr V c (ix2 i k) : EReal) * (a0arr V c (ix2 k j) : EReal) := by
  rw [z0_final]
  rfl

/-- Output window 5 (Zs = (X · [A1 | A2]) scaled by the node's scale): entry (i, j). -/
theorem zs_entry (c : Dev nD) (i : Fin 100000) (j : Fin 4) :
    (zsarr V c (ix2 i j) : EReal)
      = (∑ k : Fin 16, (xarr V c (ix2 i k) : EReal) * (mbcarr V c (ix2 k j) : EReal)) * (nuarr V c (ix2 i 0) : EReal) := by
  rw [zs_final]
  rfl

end Cert.KernelIdeal.Region0

end
-- ==== Proof.KRegion1.lean ====
/-
  Region 1 (the combination): what its output array holds after the run, entry by entry.

  The region walks the 100000 rows of three [100000, 2] arrays Z0, P1, PP2 in 20 blocks of 5000 rows. On each block it
  forms max ((Z0 + P1) + PP2) 0 entry by entry and writes the result to the same rows of the output array. The blocks
  are disjoint and fill the array, so afterwards entry (n, j) of the output is
  max ((Z0 (n, j) + P1 (n, j)) + PP2 (n, j)) 0: `out_entry`.
-/
import proofs.«410256_j61907658605175_3_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem

/-- The zero offsets of a whole-block access, as the constant function. -/
theorem zero_off : (![0, 0] : Fin 2 → Nat) = fun _ => 0 := funext fun a => by fin_cases a <;> rfl

/-- Entry by entry, the sum of three arrays cut off below at zero. -/
abbrev relu3 {S : Shape} (z p q : FVec Ideal S .f32) : FVec Ideal S .f32 :=
  fun i => max ((z i + p i) + q i) (0 : EReal)

/-- The body's payload is that function of its three loaded blocks. -/
theorem payload_eq (x0 x1 x2 : Vec Ideal S5000x2 .f32) : k1_pay1 x0 x1 x2 = relu3 x0 x1 x2 := by
  unfold k1_pay1
  simp only [shapeCast_self]
  funext i
  rw [maximumf_apply, addf_apply, addf_apply, broadcast_apply]
  show max _ (Ideal.ofBits .f32 0x00000000#32) = _
  rw [Ideal.ofBits_zero_f32]

variable (V : (c : Dev nD) → (b : Ref sig .tc) → Buf (Elt Ideal) ((c : Thread nD τ).loc b))

/-- The three arrays the region reads, as it finds them, and the one it writes, after the run, each at its literal type. -/
abbrev z0in (c : Dev nD) : FVec Ideal S100000x2 .f32 := V c main_v44_0
abbrev p1in (c : Dev nD) : FVec Ideal S100000x2 .f32 := V c main_v57
abbrev pp2in (c : Dev nD) : FVec Ideal S100000x2 .f32 := V c main_v72
abbrev outarr (c : Dev nD) : FVec Ideal S100000x2 .f32 := (dat1 (F := Ideal) V c).arrAt 3 cfg1.N

/-- The block index maps, decided over the grid: every window's block at point t is row block t, column block 0. -/
theorem block_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Every row block is some point's. -/
theorem block_onto : ∀ q : Fin 20, ∃ t : Fin cfg1.N, t.val = q.val :=
  (by decide +kernel : ∀ q : Fin 20, ∃ t : Fin grid1.N, t.val = q.val)

/-- What point t writes back is row block t of that function of the three arrays as the region finds them: each
    input block is read at the rows the output block is written to (row 5000 t + a, column b). -/
theorem written_block (c : Dev nD) (t : Fin cfg1.N) :
    (dat1 (F := Ideal) V c).flushed 3 t
      = ((cfg1.win 3).blk t).view.read (Elt Ideal) (relu3 (z0in V c) (p1in V c) (pp2in V c)) := by
  show (cfg1.win 3).cut (grid1.coords t) ((dat1 V c).after 3 t) = _
  rw [after1_3]
  unfold out1_3
  rw [View.canon_unit_zero zero_off]
  simp only [View.ld_unit_zero (S := S5000x2) zero_off]
  rw [payload_eq]
  obtain ⟨e00, e01, e10, e11, e20, e21, e30, e31⟩ := block_index t
  funext y
  have h0 : ((cfg1.win 0).blk t).view.emb y = ((cfg1.win 3).blk t).view.emb y := by
    funext a; apply Fin.ext
    match a with
    | ⟨0, _⟩ => show win1_0.index t (0 : Fin 2) * 5000 + 1 * (y 0).val = win1_3.index t (0 : Fin 2) * 5000 + 1 * (y 0).val; omega
    | ⟨1, _⟩ => show win1_0.index t (1 : Fin 2) * 2 + 1 * (y 1).val = win1_3.index t (1 : Fin 2) * 2 + 1 * (y 1).val; omega
  have h1 : ((cfg1.win 1).blk t).view.emb y = ((cfg1.win 3).blk t).view.emb y := by
    funext a; apply Fin.ext
    match a with
    | ⟨0, _⟩ => show win1_1.index t (0 : Fin 2) * 5000 + 1 * (y 0).val = win1_3.index t (0 : Fin 2) * 5000 + 1 * (y 0).val; omega
    | ⟨1, _⟩ => show win1_1.index t (1 : Fin 2) * 2 + 1 * (y 1).val = win1_3.index t (1 : Fin 2) * 2 + 1 * (y 1).val; omega
  have h2 : ((cfg1.win 2).blk t).view.emb y = ((cfg1.win 3).blk t).view.emb y := by
    funext a; apply Fin.ext
    match a with
    | ⟨0, _⟩ => show win1_2.index t (0 : Fin 2) * 5000 + 1 * (y 0).val = win1_3.index t (0 : Fin 2) * 5000 + 1 * (y 0).val; omega
    | ⟨1, _⟩ => show win1_2.index t (1 : Fin 2) * 2 + 1 * (y 1).val = win1_3.index t (1 : Fin 2) * 2 + 1 * (y 1).val; omega
  show max ((z0in V c (((cfg1.win 0).blk t).view.emb y) + p1in V c (((cfg1.win 1).blk t).view.emb y))
        + pp2in V c (((cfg1.win 2).blk t).view.emb y)) (0 : EReal)
      = max ((z0in V c (((cfg1.win 3).blk t).view.emb y) + p1in V c (((cfg1.win 3).blk t).view.emb y))
        + pp2in V c (((cfg1.win 3).blk t).view.emb y)) (0 : EReal)
  rw [h0, h1, h2]

/-- An index of the array is in point t's block iff each coordinate is in the block's range on its axis. -/
theorem mem_block (t : Fin cfg1.N) (i : S100000x2.Idx) :
    i ∈ ((cfg1.win 3).blk t).view.set
      ↔ ∀ a : Fin 2, win1_3.index t a * S5000x2.size a ≤ (i a).val ∧ (i a).val < win1_3.index t a * S5000x2.size a + S5000x2.size a := by
  show i ∈ ((View.whole main_v73).slice (win1_3.rect t)).set ↔ _
  rw [View.set_slice_whole, Rect.mem_set_unit]
  exact Iff.rfl

/-- The row blocks cover the array: row n is in the block of point n / 5000. -/
theorem rows_covered (i : S100000x2.Idx) :
    ∃ t : Fin cfg1.N, (cfg1.win 3).flush t = true ∧ i ∈ ((cfg1.win 3).blk t).view.set := by
  have hi0 : (i 0).val < 100000 := (i 0).isLt
  have hi1 : (i 1).val < 2 := (i 1).isLt
  obtain ⟨t, ht⟩ := block_onto ⟨(i 0).val / 5000, by omega⟩
  obtain ⟨e00, e01, e10, e11, e20, e21, e30, e31⟩ := block_index t
  have ht' : t.val = (i 0).val / 5000 := ht
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 2 ≤ (i 1).val ∧ (i 1).val < win1_3.index t (1 : Fin 2) * 2 + 2; omega

/-- The output array after the run is that function of the three input arrays as the region finds them. -/
theorem out_array (c : Dev nD) : outarr V c = relu3 (z0in V c) (p1in V c) (pp2in V c) :=
  (dat1 (F := Ideal) V c).arrAt_eq_of_cover 3 (relu3 (z0in V c) (p1in V c) (pp2in V c))
    (fun t _ => written_block V c t) rows_covered

/-- Output window 3: entry (n, j) is max ((Z0 + P1) + PP2) 0 of the three input arrays' entries (n, j). -/
theorem out_entry (c : Dev nD) (n : Fin 100000) (j : Fin 2) :
    (outarr V c (ix2 n j) : EReal)
      = max (((z0in V c (ix2 n j) : EReal) + (p1in V c (ix2 n j) : EReal)) + (pp2in V c (ix2 n j) : EReal)) 0 := by
  rw [out_array]

end Cert.KernelIdeal.Region1

end
-- ==== Proof.Spec.lean ====
/-
  The mathematics both programs compute, over abstract node and edge types.

  A graph with nodes `ι` and edges `ε`: edge `e` carries the features of node `row e` (the gathered
  row) and is summed into every node `n` with `e ∈ inb n` (the scatter-add). With a per-node scale
  `ν` one propagation step of a feature column `y` is
      (P y) n = (0 + ∑ e ∈ inb n, y (row e) * ν (row e)) * ν n,
  a LINEAR operator on columns once `ν` and `y` are real.

  The reference runs the Chebyshev recursion
      X1 = (-r) · P X + X · (r - 1),   X2 = ((-2·r) · P X1 + X1 · (2·(r - 1))) - X,
  and contracts `[X | X1 | X2]` (48 columns) with the weight `w`; the kernel first contracts `X` with three
  16×2 matrices `A0`, `A1`, `A2` that are polynomials in `r` of the three 16-column slices of `w`, and then
  propagates the 2-column results once and twice. The two agree because `P` commutes with a contraction
  of the feature axis and because of the polynomial identities in `r`.

  The float constants 1, 2, 4, -2 enter as PARAMETERS `c1 c2 c4 cm2` (each program carries them as bit
  patterns): the two functions below are stated at whatever extended reals those are.
-/
import Mathlib.Data.EReal.Inv
import Mathlib.Algebra.BigOperators.Group.Finset.Basic

noncomputable section

namespace Cert.Spec

open Finset

variable {ι ε : Type} [Fintype ι] [Fintype ε]

/-- Column `k` of the first, second, third 16-column slice of the 48 weight columns. -/
def s0 (k : Fin 16) : Fin 48 := ⟨k.val, by omega⟩
def s1 (k : Fin 16) : Fin 48 := ⟨16 + k.val, by omega⟩
def s2 (k : Fin 16) : Fin 48 := ⟨32 + k.val, by omega⟩

section
variable (c1 c2 c4 cm2 : EReal) (x : ι → Fin 16 → EReal) (w : Fin 2 → Fin 48 → EReal) (r : EReal)
  (ν : ι → EReal) (row : ε → ι) (inb : ι → Finset ε)

/-! ## The kernel's side -/

/-- `A0 = Wt0 + (r - 1)·Wt1 + (2·(r - 1)² - 1)·Wt2`, in the kernel's order of operations. -/
def kA0 (k : Fin 16) (j : Fin 2) : EReal :=
  (w j (s0 k) + (r - c1) * w j (s1 k)) + ((c2 * ((r - c1) * (r - c1)) - c1) * w j (s2 k))
/-- `A1 = (-r)·Wt1 - (4·r·(r - 1))·Wt2`. -/
def kA1 (k : Fin 16) (j : Fin 2) : EReal :=
  ((-r) * w j (s1 k)) - (((c4 * r) * (r - c1)) * w j (s2 k))
/-- `A2 = (2·r·r)·Wt2`. -/
def kA2 (k : Fin 16) (j : Fin 2) : EReal :=
  ((c2 * r) * r) * w j (s2 k)
/-- `[A1 | A2]`, four columns. -/
def kMbc (k : Fin 16) (j : Fin 4) : EReal :=
  if h : j.val < 2 then kA1 c1 c4 w r k ⟨j.val, h⟩ else kA2 c2 w r k ⟨j.val - 2, by omega⟩
/-- `Z0 = X · A0`. -/
def kZ0 (i : ι) (j : Fin 2) : EReal := ∑ k : Fin 16, x i k * kA0 c1 c2 w r k j
/-- `Zs = (X · [A1 | A2]) ∘ ν`: the projections, already scaled for the gather. -/
def kZs (i : ι) (j : Fin 4) : EReal := (∑ k : Fin 16, x i k * kMbc c1 c2 c4 w r k j) * ν i
/-- The first propagation, of the four scaled columns at once. -/
def kComb (n : ι) (j : Fin 4) : EReal := (0 + ∑ e ∈ inb n, kZs c1 c2 c4 x w r ν (row e) j) * ν n
/-- The second propagation, of columns 2 and 3 of the first. -/
def kPP2 (n : ι) (j : Fin 2) : EReal :=
  (0 + ∑ e ∈ inb n, (kComb c1 c2 c4 x w r ν row inb (row e) ⟨j.val + 2, by omega⟩ * ν (row e))) * ν n
/-- The kernel's result: `max ((Z0 + P(X·A1)) + P(P(X·A2))) 0`. -/
def ker (n : ι) (j : Fin 2) : EReal :=
  max ((kZ0 c1 c2 x w r n j + kComb c1 c2 c4 x w r ν row inb n ⟨j.val, by omega⟩)
    + kPP2 c1 c2 c4 x w r ν row inb n j) 0

/-! ## The reference's side -/

/-- `P X`: one propagation of the 16 feature columns. -/
def rP1 (n : ι) (k : Fin 16) : EReal := (0 + ∑ e ∈ inb n, (x (row e) k * ν (row e))) * ν n
/-- `X1 = (-r)·P X + X·(r - 1)`. -/
def rX1 (n : ι) (k : Fin 16) : EReal := (-r) * rP1 x ν row inb n k + x n k * (r - c1)
/-- `P X1`. -/
def rP2 (n : ι) (k : Fin 16) : EReal := (0 + ∑ e ∈ inb n, (rX1 c1 x r ν row inb (row e) k * ν (row e))) * ν n
/-- `X2 = ((-2·r)·P X1 + X1·(2·(r - 1))) - X`. -/
def rX2 (n : ι) (k : Fin 16) : EReal :=
  (((cm2 * r) * rP2 c1 x r ν row inb n k) + (rX1 c1 x r ν row inb n k * (c2 * (r - c1)))) - x n k
/-- `[X | X1 | X2]`, 48 columns. -/
def rXt (n : ι) (q : Fin 48) : EReal :=
  if h : q.val < 16 then x n ⟨q.val, h⟩
  else if h' : q.val < 32 then rX1 c1 x r ν row inb n ⟨q.val - 16, by omega⟩
  else rX2 c1 c2 cm2 x r ν row inb n ⟨q.val - 32, by omega⟩
/-- The reference's result: `max ([X | X1 | X2] · wᵀ) 0`. -/
def ref (n : ι) (j : Fin 2) : EReal :=
  max (∑ q : Fin 48, rXt c1 c2 cm2 x r ν row inb n q * w j q) 0

end

end Cert.Spec

end
-- ==== Proof.Iface.lean ====
/-
  The names the two programs' value statements share.

  Both programs gather a feature row per edge and sum it into the edge's target node. Read off the start-index
  arrays the gather and the scatter take (both of shape [E, 1]):
  * `rowOf idx e`  — the node whose row edge `e` carries: the start index read as a SIGNED integer and CLAMPED into
    the node range, as a gather clamps;
  * `inbOf idx n`  — the edges summed into node `n`: those whose start index, read signed, IS `n` (an index outside
    the node range lands nowhere, as a scatter drops it).
  The start-index arrays themselves and the per-node scale are the SAME host operations in both programs; their
  canonical form here is the reference's own reading of them:
  * `srcIdx src` — the source indices with a negative index wrapped by the number of nodes, as a column [E, 1];
  * `dstIdx dst` — the target indices as a column [E, 1];
  * `nuOf dst n` — the scale of node `n`: (max 1 (in-degree of n)) ^ (-1/2), computed from `dst` alone.
  `rOf lam` is the ratio 2 / lambda_max, and `c1 c2 c4 cm2` are the float constants 1, 2, 4, -2 as the programs
  carry them.
-/
import proofs.«410256_j61907658605175_3_alg».proof.Proof.Spec
import proofs.«410256_j61907658605175_3_alg».proof.Proof.Gen.ReferenceIdeal.Read
import Idealize.ShloMosaic.Lib.ValueIdx
import Idealize.ShloMosaic.PureOps.Ideal

noncomputable section

namespace Cert.Iface

open Idealize.ShloMosaic Idealize.ShloMosaic.ValueIdx

/-- The node whose feature row edge `e` carries. -/
def rowOf (idx : IVec ⟨2, ![3200000, 1]⟩ 32) (e : Fin 3200000) : Fin 100000 :=
  ⟨min (idx (ix2 e 0)).toInt.toNat (100000 - 1), by omega⟩

/-- The edges summed into node `n`. -/
def inbOf (idx : IVec ⟨2, ![3200000, 1]⟩ 32) (n : Fin 100000) : Finset (Fin 3200000) :=
  Finset.univ.filter fun e => (idx (ix2 e 0)).toInt = (n.val : Int)

/-- The float constants 1, 2, 4, -2 as bit patterns read on the extended reals. -/
def c1 : EReal := Ideal.ofBits .f32 0x3F800000#32
def c2 : EReal := Ideal.ofBits .f32 0x40000000#32
def c4 : EReal := Ideal.ofBits .f32 0x40800000#32
def cm2 : EReal := Ideal.ofBits .f32 0xC0000000#32

/-- The ratio 2 / lambda_max. -/
def rOf (lam : (⟨1, ![1]⟩ : Shape).Idx → EReal) : EReal := Ideal.div c2 (lam (ix1 0))

/-- The gather's start indices: the source indices, a negative one wrapped, as a column. -/
def srcIdx (src : IVec ⟨1, ![3200000]⟩ 32) : IVec ⟨2, ![3200000, 1]⟩ 32 :=
  Cert.ReferenceIdeal.Read.val_main_v19 (F := Ideal) src

/-- The scatter's start indices: the target indices as a column. -/
def dstIdx (dst : IVec ⟨1, ![3200000]⟩ 32) : IVec ⟨2, ![3200000, 1]⟩ 32 :=
  Cert.ReferenceIdeal.Read.val_main_v22 (F := Ideal) dst

/-- The per-node scale column, entry `n`. -/
def nuOf (dst : IVec ⟨1, ![3200000]⟩ 32) (n : Fin 100000) : EReal :=
  Cert.ReferenceIdeal.Read.val_main_v7 (F := Ideal) dst (ix2 n 0)

/-- The feature array and the weight array read by coordinates. -/
def xOf (x : (⟨2, ![100000, 16]⟩ : Shape).Idx → EReal) (i : Fin 100000) (k : Fin 16) : EReal := x (ix2 i k)
def wOf (w : (⟨2, ![2, 48]⟩ : Shape).Idx → EReal) (j : Fin 2) (q : Fin 48) : EReal := w (ix2 j q)

end Cert.Iface

end
-- ==== Proof.LibLayout2.lean ====
/-
  Small layout facts read at an entry: a column [M, 1] and a row [1, N] broadcast in dimensions [0, 1] to [M, N],
  a vector [N] broadcast in dimension [1] to one row [1, N], and a vector [M] recast as a column [M, 1].
-/
import Idealize.ShloMosaic.Lib.ValueIdx
import Idealize.ShloMosaic.Lib.ValueLayout
import Idealize.ShloMosaic.Lib.Pipeline.Value

noncomputable section

namespace Cert.LibLayout2

open Idealize.ShloMosaic Idealize.ShloMosaic.ValueIdx

variable {α : Type}

/-- A column broadcast over the columns reads, at (r, q), the column's entry of row r. -/
theorem bcast_col_apply {M N : Nat} (y : (⟨2, ![M, 1]⟩ : Shape).Idx → α)
    (h : (⟨2, ![M, 1]⟩ : Shape).BroadcastsInDim ⟨2, ![M, N]⟩ ![0, 1]) (r : Fin M) (q : Fin N) :
    broadcastInDim ⟨2, ![M, N]⟩ ![0, 1] h y (ix2 r q) = y (ix2 r (0 : Fin 1)) :=
  broadcastInDim_apply ![0, 1] h y (ix2 r q) (ix2 r (0 : Fin 1)) fun ax => by
    match ax with
    | ⟨0, _⟩ =>
      show r.val = if M = 1 then 0 else r.val
      split
      · have := r.isLt; omega
      · rfl
    | ⟨1, _⟩ => rfl

/-- A row broadcast over the rows reads, at (r, q), the row's entry of column q. -/
theorem bcast_row_apply {M N : Nat} (y : (⟨2, ![1, N]⟩ : Shape).Idx → α)
    (h : (⟨2, ![1, N]⟩ : Shape).BroadcastsInDim ⟨2, ![M, N]⟩ ![0, 1]) (r : Fin M) (q : Fin N) :
    broadcastInDim ⟨2, ![M, N]⟩ ![0, 1] h y (ix2 r q) = y (ix2 (0 : Fin 1) q) :=
  broadcastInDim_apply ![0, 1] h y (ix2 r q) (ix2 (0 : Fin 1) q) fun ax => by
    match ax with
    | ⟨0, _⟩ => rfl
    | ⟨1, _⟩ =>
      show q.val = if N = 1 then 0 else q.val
      split
      · have := q.isLt; omega
      · rfl

/-- A vector broadcast to one row reads, at (u, q), the vector's entry q. -/
theorem bcast_vec_row_apply {N : Nat} (b : (⟨1, ![N]⟩ : Shape).Idx → α)
    (h : (⟨1, ![N]⟩ : Shape).BroadcastsInDim ⟨2, ![1, N]⟩ ![1]) (u : Fin 1) (q : Fin N) :
    broadcastInDim ⟨2, ![1, N]⟩ ![1] h b (ix2 u q) = b (ix1 q) :=
  broadcastInDim_apply ![1] h b (ix2 u q) (ix1 q) fun ax => by
    match ax with
    | ⟨0, _⟩ =>
      show q.val = if N = 1 then 0 else q.val
      split
      · have := q.isLt; omega
      · rfl

/-- A vector recast as a column reads, at (r, u), the vector's entry r. -/
theorem shapeCast_a_a1_apply {M : Nat} (x : (⟨1, ![M]⟩ : Shape).Idx → α) (h : (⟨1, ![M]⟩ : Shape).ShapeCasts ⟨2, ![M, 1]⟩)
    (r : Fin M) (u : Fin 1) : shapeCast ⟨2, ![M, 1]⟩ x h (ix2 r u) = x (ix1 r) :=
  shapeCast_apply x h _ _ (by
    have hu : u.val = 0 := by omega
    rw [Shape.rowMajor_val_two, Shape.rowMajor_val_one]
    show r.val = r.val * 1 + u.val
    omega)

end Cert.LibLayout2

end
-- ==== Proof.KHost0.lean ====
/-
  The host operations before region 0, and what region 0 leaves untouched.

  From the launch memory the program computes, before its first region: the scale column ν from the target
  indices (the same operations as the reference's), the ratio r = 2 / lambda_max, the three 16×2 slices of the
  transposed weight, and from them A0 (as bf16, a change of format that is the identity on the extended reals) and
  [A1 | A2]. Region 0 writes only its two output arrays: the scale column and the index arguments are afterwards
  what they were.

  The scale column is followed line by line: the in-degree column after the first line, its clip at one after the
  second, its power -1/2 as a column after the third; at each line the array is, as a whole function of the target
  indices, the reference's. The coefficient matrices are named as functions of the weight and of lambda_max
  (`a0V`, `a1V`, `a2V`, `mbcV`) and read at an entry (k, j): a transposed slice reads w (j, offset + k), a
  broadcast scalar reads the scalar, the arithmetic is entrywise, and a concatenation along the columns reads its
  first piece at columns 0 and 1 and its second at columns 2 and 3.
-/
import proofs.«410256_j61907658605175_3_alg».proof.Proof.Gen.KernelIdeal.Frame
import proofs.«410256_j61907658605175_3_alg».proof.Proof.Iface
import proofs.«410256_j61907658605175_3_alg».proof.Proof.LibLayout2
import Idealize.ShloMosaic.Lib.ValueIdx
import Idealize.ShloMosaic.Lib.ValueLayout
import Idealize.ShloMosaic.Lib.Pipeline.Value
import Idealize.ShloMosaic.Lib.StableHlo.Run
import Idealize.ShloMosaic.Lib.IdealHost
import Idealize.ShloMosaic.PureOps.Ideal.Laws

set_option maxRecDepth 16384

noncomputable section

namespace Cert.KernelIdeal.Host0

open Cert.KernelIdeal Cert.KernelIdeal.Gen Cert.Iface Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The argument arrays at launch, each at its literal type. -/
abbrev xArg (c : Dev nD) : FVec Ideal S100000x16 .f32 := m ((c : Thread nD τ).loc main_arg0)
abbrev wArg (c : Dev nD) : FVec Ideal S2x48 .f32 := m ((c : Thread nD τ).loc main_arg1)
abbrev srcArg (c : Dev nD) : IVec S3200000 32 := m ((c : Thread nD τ).loc main_arg2)
abbrev dstArg (c : Dev nD) : IVec S3200000 32 := m ((c : Thread nD τ).loc main_arg3)
abbrev lamArg (c : Dev nD) : FVec Ideal S1 .f32 := m ((c : Thread nD τ).loc main_arg4)
/-- What region 0 reads, as it finds it (the contents at its entry), each at its literal type. -/
abbrev x3 (c : Dev nD) : FVec Ideal S100000x16 .f32 := V3 (F := Ideal) m ρ c main_arg0
abbrev nu3 (c : Dev nD) : FVec Ideal S100000x1 .f32 := V3 (F := Ideal) m ρ c main_v7
abbrev a03 (c : Dev nD) : FVec Ideal S16x2 .bf16 := V3 (F := Ideal) m ρ c main_v41
abbrev mbc3 (c : Dev nD) : FVec Ideal S16x4 .bf16 := V3 (F := Ideal) m ρ c main_v43

/-! ## Buffers no host operation writes -/

/-- No operation of a line writes the buffer. -/
local macro "not_written" ops:ident : tactic =>
  `(tactic| exact List.forall_iff_forall_mem.mp (by
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- A buffer that no host operation before region 0 writes is, at region 0's entry, as launched. -/
theorem W3_of_not_written (c : Dev nD) (b : Ref sig .tc)
    (h2 : ∀ op ∈ (hostOps0_2 : List (HloOp τ sig (Elt Ideal))), Proc.devRef .tc b ∉ op.writes)
    (h1 : ∀ op ∈ (hostOps0_1 : List (HloOp τ sig (Elt Ideal))), Proc.devRef .tc b ∉ op.writes)
    (h0 : ∀ op ∈ (hostOps0 : List (HloOp τ sig (Elt Ideal))), Proc.devRef .tc b ∉ op.writes) :
    W3 (F := Ideal) m ρ c (Proc.devRef .tc b) = m ((c : Thread nD τ).loc b) :=
  calc W3 (F := Ideal) m ρ c (Proc.devRef .tc b)
    _ = W2 (F := Ideal) m ρ c (Proc.devRef .tc b) := StableHlo.after_of_forall_not_mem (b := Proc.devRef .tc b) _ _ h2
    _ = W1 (F := Ideal) m ρ c (Proc.devRef .tc b) := StableHlo.after_of_forall_not_mem (b := Proc.devRef .tc b) _ _ h1
    _ = W0 (F := Ideal) m ρ c (Proc.devRef .tc b) := StableHlo.after_of_forall_not_mem (b := Proc.devRef .tc b) _ _ h0
    _ = m ((c : Thread nD τ).loc b) := rfl

/-- Region 0 finds the feature array as launched. -/
theorem x3_eq (c : Dev nD) : x3 m ρ c = xArg m c :=
  W3_of_not_written m ρ c main_arg0 (by not_written hostOps0_2) (by not_written hostOps0_1) (by not_written hostOps0)

/-! ## The scale column: the reference's own chain of operations on the target indices -/

theorem W0_dst (c : Dev nD) : W0 (F := Ideal) m ρ c (Proc.devRef .tc main_arg3) = dstArg m c := rfl

/-- The in-degree column after the first line of host operations. -/
theorem W1_v3 (c : Dev nD) :
    (W1 (F := Ideal) m ρ c (Proc.devRef .tc main_v3) : FVec Ideal S100000 .f32)
      = Cert.ReferenceIdeal.Read.val_main_v3 (F := Ideal) (dstArg m c) := by
  have h0 := W0_dst m ρ c
  dsimp only [W1, hostOps0]
  generalize W0 (F := Ideal) m ρ c = W at h0 ⊢
  after_results
  rw [h0]
  rfl
theorem W1_cst_1 (c : Dev nD) :
    (W1 (F := Ideal) m ρ c (Proc.devRef .tc main_cst_1) : FVec Ideal S_ .f32)
      = Cert.ReferenceIdeal.Read.val_main_cst_1 (F := Ideal) := by
  dsimp only [W1, hostOps0]
  generalize W0 (F := Ideal) m ρ c = W
  after_results
  rfl

/-- The clipped in-degree after the second line. -/
theorem W2_v4 (c : Dev nD) :
    (W2 (F := Ideal) m ρ c (Proc.devRef .tc main_v4) : FVec Ideal S100000 .f32)
      = Cert.ReferenceIdeal.Read.val_main_v4 (F := Ideal) (dstArg m c) := by
  have h3 := W1_v3 m ρ c
  have hc := W1_cst_1 m ρ c
  dsimp only [W2, hostOps0_1]
  generalize W1 (F := Ideal) m ρ c = W at h3 hc ⊢
  after_results
  simp only [TRef.ofBuf, TRef.toBuf, cast_eq]
  rw [h3, hc]
  rfl

/-- The scale column at region 0's entry is, as a whole column, the one the reference computes from the
    target indices: the two programs apply the same operations to them. -/
theorem nu3_fun (c : Dev nD) :
    (V3 (F := Ideal) m ρ c main_v7 : FVec Ideal S100000x1 .f32)
      = Cert.ReferenceIdeal.Read.val_main_v7 (F := Ideal) (dstArg m c) := by
  have h4 := W2_v4 m ρ c
  dsimp only [V3, W3, hostOps0_2]
  generalize W2 (F := Ideal) m ρ c = W at h4 ⊢
  after_results
  rw [h4]
  rfl

/-- Region 0 finds the scale column the reference computes. -/
theorem nu3_entry (c : Dev nD) (n : Fin 100000) : (nu3 m ρ c (ix2 n 0) : EReal) = nuOf (dstArg m c) n := by
  unfold nuOf
  exact congrFun (nu3_fun m ρ c) (ix2 n 0)

/-! ## The coefficient matrices as functions of the weight and of lambda_max -/

section Stages
variable (w : FVec Ideal S2x48 .f32) (lam : FVec Ideal S1 .f32)

/-- The ratio r = 2 / lambda_max, a scalar. -/
def rV : FVec Ideal S_ .f32 :=
  shapeCast S_ (Host.divf (broadcastInDim S1 ![] bcast_S_S1 (constant S_ .f32 0x40000000#32)) lam) shapeCasts_S1_S_

theorem rV_apply (i : S_.Idx) : (rV lam i : EReal) = rOf lam := by
  unfold rV rOf
  refine (shapeCast_apply _ shapeCasts_S1_S_ i (ix1 (0 : Fin 1)) ?_).trans ?_
  · rw [Shape.rowMajor_val_one]
    have h := (Shape.rowMajor S_ i).isLt
    have h1 : S_.numel = 1 := by decide
    show 0 = _
    omega
  · rw [hostDivf_apply, broadcastInDim_scalar_apply, constant_apply]
    rfl

/-- The three 16-column slices of the weight, transposed: Wt0, Wt1, Wt2 (entry (k, j) is w (j, k), w (j, 16 + k),
    w (j, 32 + k)). -/
def wt0 : FVec Ideal S16x2 .f32 :=
  transpose S16x2 [1, 0] (extractStridedSlice S2x16 ![0, 0] w slices_S2x48_S2x16_0_0) transposes_S2x16_S16x2_1_0
def wt1 : FVec Ideal S16x2 .f32 :=
  transpose S16x2 [1, 0] (extractStridedSlice S2x16 ![0, 16] w slices_S2x48_S2x16_0_16) transposes_S2x16_S16x2_1_0
def wt2 : FVec Ideal S16x2 .f32 :=
  transpose S16x2 [1, 0] (extractStridedSlice S2x16 ![0, 32] w slices_S2x48_S2x16_0_32) transposes_S2x16_S16x2_1_0

theorem wt0_apply (k : Fin 16) (j : Fin 2) : (wt0 w (ix2 k j) : EReal) = wOf w j (Cert.Spec.s0 k) := by
  unfold wt0 wOf
  refine (transpose_ix2_apply _ transposes_S2x16_S16x2_1_0 k j).trans ?_
  exact extractStridedSlice_apply _ w slices_S2x48_S2x16_0_0 (ix2 j k) (ix2 j (Cert.Spec.s0 k)) fun a => match a with
    | ⟨0, _⟩ => by show j.val = 0 + j.val; omega
    | ⟨1, _⟩ => by show k.val = 0 + k.val; omega
theorem wt1_apply (k : Fin 16) (j : Fin 2) : (wt1 w (ix2 k j) : EReal) = wOf w j (Cert.Spec.s1 k) := by
  unfold wt1 wOf
  refine (transpose_ix2_apply _ transposes_S2x16_S16x2_1_0 k j).trans ?_
  exact extractStridedSlice_apply _ w slices_S2x48_S2x16_0_16 (ix2 j k) (ix2 j (Cert.Spec.s1 k)) fun a => match a with
    | ⟨0, _⟩ => by show j.val = 0 + j.val; omega
    | ⟨1, _⟩ => by show 16 + k.val = 16 + k.val; rfl
theorem wt2_apply (k : Fin 16) (j : Fin 2) : (wt2 w (ix2 k j) : EReal) = wOf w j (Cert.Spec.s2 k) := by
  unfold wt2 wOf
  refine (transpose_ix2_apply _ transposes_S2x16_S16x2_1_0 k j).trans ?_
  exact extractStridedSlice_apply _ w slices_S2x48_S2x16_0_32 (ix2 j k) (ix2 j (Cert.Spec.s2 k)) fun a => match a with
    | ⟨0, _⟩ => by show j.val = 0 + j.val; omega
    | ⟨1, _⟩ => by show 32 + k.val = 32 + k.val; rfl

/-- The host's negation at an index is the negation of the element. -/
theorem hostNegf_apply {s : Shape} {φ : FTy} (a : FVec Ideal s φ) (i : s.Idx) : Host.negf a i = -(a i) := rfl

/-- A scalar broadcast to 16 × 2 reads the scalar at every entry. -/
theorem bc_apply (s : FVec Ideal S_ .f32) (k : Fin 16) (j : Fin 2) :
    broadcastInDim S16x2 ![] bcast_S_S16x2 s (ix2 k j) = s ix0 := broadcastInDim_scalar_apply _ s _

/-- A0 = (Wt0 + (r - 1)·Wt1) + (2·((r - 1)·(r - 1)) - 1)·Wt2. -/
def a0V : FVec Ideal S16x2 .f32 :=
  addf (addf (wt0 w)
      (mulf (broadcastInDim S16x2 ![] bcast_S_S16x2 (subf (rV lam) (constant S_ .f32 0x3F800000#32))) (wt1 w)))
    (mulf (broadcastInDim S16x2 ![] bcast_S_S16x2
        (subf (mulf (constant S_ .f32 0x40000000#32)
            (mulf (subf (rV lam) (constant S_ .f32 0x3F800000#32)) (subf (rV lam) (constant S_ .f32 0x3F800000#32))))
          (constant S_ .f32 0x3F800000#32)))
      (wt2 w))
/-- A1 = (-r)·Wt1 - ((4·r)·(r - 1))·Wt2. -/
def a1V : FVec Ideal S16x2 .f32 :=
  subf (mulf (broadcastInDim S16x2 ![] bcast_S_S16x2 (Host.negf (rV lam))) (wt1 w))
    (mulf (broadcastInDim S16x2 ![] bcast_S_S16x2
        (mulf (mulf (constant S_ .f32 0x40800000#32) (rV lam)) (subf (rV lam) (constant S_ .f32 0x3F800000#32))))
      (wt2 w))
/-- A2 = ((2·r)·r)·Wt2. -/
def a2V : FVec Ideal S16x2 .f32 :=
  mulf (broadcastInDim S16x2 ![] bcast_S_S16x2 (mulf (mulf (constant S_ .f32 0x40000000#32) (rV lam)) (rV lam))) (wt2 w)
/-- [A1 | A2]. -/
def mbcV : FVec Ideal S16x4 .f32 :=
  concatenate S16x4 1 [⟨S16x2, a1V w lam⟩, ⟨S16x2, a2V w lam⟩] concatenates_S16x2_S16x2_S16x4_d1

theorem a0V_apply (k : Fin 16) (j : Fin 2) :
    (a0V w lam (ix2 k j) : EReal) = Cert.Spec.kA0 c1 c2 (wOf w) (rOf lam) k j := by
  unfold a0V Cert.Spec.kA0
  simp only [addf_apply, mulf_apply, wt0_apply, wt1_apply, wt2_apply]
  rw [bc_apply, bc_apply]
  simp only [subf_apply, mulf_apply, constant_apply, rV_apply]
  rfl
theorem a1V_apply (k : Fin 16) (j : Fin 2) :
    (a1V w lam (ix2 k j) : EReal) = Cert.Spec.kA1 c1 c4 (wOf w) (rOf lam) k j := by
  unfold a1V Cert.Spec.kA1
  simp only [subf_apply, mulf_apply, wt1_apply, wt2_apply]
  rw [bc_apply, bc_apply]
  simp only [subf_apply, mulf_apply, hostNegf_apply, constant_apply, rV_apply]
  rfl
theorem a2V_apply (k : Fin 16) (j : Fin 2) :
    (a2V w lam (ix2 k j) : EReal) = Cert.Spec.kA2 c2 (wOf w) (rOf lam) k j := by
  unfold a2V Cert.Spec.kA2
  simp only [mulf_apply, wt2_apply]
  rw [bc_apply]
  simp only [mulf_apply, constant_apply, rV_apply]
  rfl

theorem mbcV_apply (k : Fin 16) (j : Fin 4) :
    (mbcV w lam (ix2 k j) : EReal) = Cert.Spec.kMbc c1 c2 c4 (wOf w) (rOf lam) k j := by
  unfold mbcV Cert.Spec.kMbc
  by_cases h : j.val < 2
  · rw [dif_pos h]
    refine (concatenate_pair_apply_left (1 : Fin 2) (a1V w lam) (a2V w lam) concatenates_S16x2_S16x2_S16x4_d1 (ix2 k j) rfl
      (ix2 k (⟨j.val, h⟩ : Fin 2)) fun b => match b with
        | ⟨0, _⟩ => rfl
        | ⟨1, _⟩ => rfl).trans ?_
    exact a1V_apply w lam k ⟨j.val, h⟩
  · rw [dif_neg h]
    have hj := j.isLt
    refine (concatenate_pair_apply_right (1 : Fin 2) (a1V w lam) (a2V w lam) concatenates_S16x2_S16x2_S16x4_d1 (ix2 k j) rfl rfl
      (ix2 k (⟨j.val - 2, by omega⟩ : Fin 2)) (fun b => match b with
        | ⟨0, _⟩ => fun _ => rfl
        | ⟨1, _⟩ => fun hb => absurd rfl hb) (by show (j.val - 2) + 2 = j.val; omega)).trans ?_
    exact a2V_apply w lam k ⟨j.val - 2, by omega⟩

end Stages

/-! ## The two coefficient arrays at region 0's entry -/

theorem W2_arg1 (c : Dev nD) : W2 (F := Ideal) m ρ c (Proc.devRef .tc main_arg1) = wArg m c :=
  calc W2 (F := Ideal) m ρ c (Proc.devRef .tc main_arg1)
    _ = W1 (F := Ideal) m ρ c (Proc.devRef .tc main_arg1) :=
        StableHlo.after_of_forall_not_mem (b := Proc.devRef .tc main_arg1) _ _ (by not_written hostOps0_1)
    _ = W0 (F := Ideal) m ρ c (Proc.devRef .tc main_arg1) :=
        StableHlo.after_of_forall_not_mem (b := Proc.devRef .tc main_arg1) _ _ (by not_written hostOps0)
    _ = wArg m c := rfl
theorem W2_arg4 (c : Dev nD) : W2 (F := Ideal) m ρ c (Proc.devRef .tc main_arg4) = lamArg m c :=
  calc W2 (F := Ideal) m ρ c (Proc.devRef .tc main_arg4)
    _ = W1 (F := Ideal) m ρ c (Proc.devRef .tc main_arg4) :=
        StableHlo.after_of_forall_not_mem (b := Proc.devRef .tc main_arg4) _ _ (by not_written hostOps0_1)
    _ = W0 (F := Ideal) m ρ c (Proc.devRef .tc main_arg4) :=
        StableHlo.after_of_forall_not_mem (b := Proc.devRef .tc main_arg4) _ _ (by not_written hostOps0)
    _ = lamArg m c := rfl

set_option maxHeartbeats 1000000 in
/-- Region 0's third window holds A0 (in bf16) as a whole array. -/
theorem a03_fun (c : Dev nD) :
    (V3 (F := Ideal) m ρ c main_v41 : FVec Ideal S16x2 .bf16)
      = truncf .bf16 (a0V (wArg m c) (lamArg m c)) bitsLt_bf16_f32 := by
  have h1 := W2_arg1 m ρ c
  have h4 := W2_arg4 m ρ c
  dsimp only [V3, W3, hostOps0_2]
  generalize W2 (F := Ideal) m ρ c = W at h1 h4 ⊢
  after_results_simp
  rw [h1, h4]
  rfl

set_option maxHeartbeats 1000000 in
/-- Region 0's fourth window holds [A1 | A2] (in bf16) as a whole array. -/
theorem mbc3_fun (c : Dev nD) :
    (V3 (F := Ideal) m ρ c main_v43 : FVec Ideal S16x4 .bf16)
      = truncf .bf16 (mbcV (wArg m c) (lamArg m c)) bitsLt_bf16_f32 := by
  have h1 := W2_arg1 m ρ c
  have h4 := W2_arg4 m ρ c
  dsimp only [V3, W3, hostOps0_2]
  generalize W2 (F := Ideal) m ρ c = W at h1 h4 ⊢
  after_results_simp
  unfold mbcV
  refine congrArg (fun z : FVec Ideal S16x4 .f32 => truncf .bf16 z bitsLt_bf16_f32)
    (congrArg₂ (fun a b : FVec Ideal S16x2 .f32 =>
      concatenate S16x4 1 [⟨S16x2, a⟩, ⟨S16x2, b⟩] concatenates_S16x2_S16x2_S16x4_d1) ?_ ?_)
  · after_results_simp
    rw [h1, h4]
    rfl
  · after_results_simp
    rw [h1, h4]
    rfl

/-- Region 0 finds A0 in its third window. -/
theorem a03_entry (c : Dev nD) (k : Fin 16) (j : Fin 2) :
    (a03 m ρ c (ix2 k j) : EReal) = Cert.Spec.kA0 c1 c2 (wOf (wArg m c)) (rOf (lamArg m c)) k j :=
  (congrFun (a03_fun m ρ c) (ix2 k j)).trans (a0V_apply (wArg m c) (lamArg m c) k j)
/-- Region 0 finds [A1 | A2] in its fourth window. -/
theorem mbc3_entry (c : Dev nD) (k : Fin 16) (j : Fin 4) :
    (mbc3 m ρ c (ix2 k j) : EReal) = Cert.Spec.kMbc c1 c2 c4 (wOf (wArg m c)) (rOf (lamArg m c)) k j :=
  (congrFun (mbc3_fun m ρ c) (ix2 k j)).trans (mbcV_apply (wArg m c) (lamArg m c) k j)

/-! ## What region 0 leaves untouched -/

/-- When region 0 has ended, the scale column and the two index arguments are what they were. -/
theorem W4_nu (c : Dev nD) : W4 (F := Ideal) m ρ c (Proc.devRef .tc main_v7) = V3 (F := Ideal) m ρ c main_v7 :=
  (W4_arr m ρ c 1).trans (((dat0 (V3 m ρ) c).arrAt_in 1 rfl _).trans (A_eq0 (V3 m ρ) c 1))
theorem W4_src (c : Dev nD) : W4 (F := Ideal) m ρ c (Proc.devRef .tc main_arg2) = m ((c : Thread nD τ).loc main_arg2) :=
  (W4_of_ne m ρ c main_arg2 (by decide)).trans
    (W3_of_not_written m ρ c main_arg2 (by not_written hostOps0_2) (by not_written hostOps0_1) (by not_written hostOps0))
theorem W4_dst (c : Dev nD) : W4 (F := Ideal) m ρ c (Proc.devRef .tc main_arg3) = m ((c : Thread nD τ).loc main_arg3) :=
  (W4_of_ne m ρ c main_arg3 (by decide)).trans
    (W3_of_not_written m ρ c main_arg3 (by not_written hostOps0_2) (by not_written hostOps0_1) (by not_written hostOps0))

end Cert.KernelIdeal.Host0

end
-- ==== Proof.LibRows.lean ====
/-
  A row gather and a row scatter-add, read at an entry.

  `x[idx]` of a table x : [N, D] at a column of indices idx : [E, 1] is a gather whose result row e is the table's
  row at the start index idx[e, 0], read as a signed integer and clamped into [0, N - 1]. A segment sum of
  rows u : [E, D] into [N, D] at a column of row indices is a scatter-add: entry (n, q) of the result is the
  operand's entry plus the sum of u (e, q) over the edges e whose index, read signed, is n; an index outside
  [0, N) lands nowhere.
-/
import Idealize.ShloMosaic.PureOps.Ideal.Laws
import Idealize.ShloMosaic.Lib.ValueIdx

noncomputable section

namespace Cert.LibRows

open Idealize.ShloMosaic Idealize.ShloMosaic.ValueIdx

/-- What `x[idx]` of a table x : [N, D] at a column of indices idx : [E, 1] lowers to. -/
abbrev rowsGather (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

theorem gather_rows_apply (N E D : Nat) {α : Type} {w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowsGather N E D wf) x idx (ix2 e q)
      = x (ix2 (⟨min (idx (ix2 e 0)).toInt.toNat (N - 1), by omega⟩ : Fin N) q) := by
  have fin2 : ∀ a : Fin 2, a = 0 ∨ a = 1 := by decide
  unfold Host.gather
  congr 1
  funext a
  refine Fin.ext ?_
  show (rowsGather N E D wf).start (ix2 e q) idx a + (rowsGather N E D wf).batchCoord (ix2 e q) a
    + (rowsGather N E D wf).offCoord (ix2 e q) a = _
  rw [GatherDims.batchCoord_eq_zero _ _ _ List.not_mem_nil]
  rcases fin2 a with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather N E D wf).startIndexMap from List.mem_singleton.mpr rfl)]
    have hsi : (rowsGather N E D wf).siIdx (ix2 e q) ⟨List.idxOf (0 : Fin 2) (rowsGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  · have hstart : (rowsGather N E D wf).start (ix2 e q) idx 1 = 0 := by
      unfold GatherDims.start
      rw [dif_neg (fun h => Nat.one_ne_zero (congrArg Fin.val (List.mem_singleton.mp h)))]
    rw [hstart]
    have hk : (1 : Fin 2) ∈ (rowsGather N E D wf).sKept := by
      rw [GatherDims.mem_sKept]; exact ⟨fun h => Nat.one_ne_zero (congrArg Fin.val (List.mem_singleton.mp h)), List.not_mem_nil⟩
    unfold GatherDims.offCoord
    rw [dif_pos hk]
    simp only [Nat.add_zero, Nat.zero_add]
    rfl

/-- What a segment sum of rows (updates [E, D] added into [N, D] at a column of row indices [E, 1]) lowers to. -/
abbrev rowsScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-! ## The scatter's result index, in general and for a column of row indices -/

/-- The operand's kept axes are the ones that are not inserted. -/
theorem mem_sKept {s si u : Shape} (d : ScatterDims s si u) (a : Fin s.rank) :
    a ∈ d.sKept ↔ a ∉ d.insertedWindowDims := by
  simp [ScatterDims.sKept, Shape.kept, List.mem_filter, List.mem_finRange]

/-- An update index lands at `i` exactly when, on every axis, the start (read signed) plus the window coordinate is
    `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have h1 := h a
      rw [← hi]
      show _ = (((d.start j idx a + (d.window j a : Int)).toNat : Nat) : Int)
      omega
    · intro hi
      funext a
      refine Fin.ext ?_
      show (d.start j idx a + (d.window j a : Int)).toNat = (i a).val
      have h1 := hi a
      omega
  · rename_i h
    constructor
    · intro hi; exact absurd hi (by simp)
    · intro hi
      exfalso; apply h
      intro a
      have h1 := hi a
      have h2 := (i a).isLt
      omega

section Rows
variable (N E D : Nat) {w : Nat} (wf : ScatterDims.WF ⟨2, ![N, D]⟩ ⟨2, ![E, 1]⟩ ⟨2, ![E, D]⟩ [1] [0] [0] 1)
  (idx : IVec ⟨2, ![E, 1]⟩ w) (j : (⟨2, ![E, D]⟩ : Shape).Idx)

/-- On the row axis the window starts at the update row's index, read signed … -/
theorem rows_start0 : (rowsScatter N E D wf).start j idx 0 = (idx (ix2 (j 0) 0)).toInt := by
  unfold ScatterDims.start
  rw [dif_pos (show (0 : Fin 2) ∈ (rowsScatter N E D wf).scatterDimsToOperandDims from List.mem_singleton.mpr rfl)]
  have hsi : (rowsScatter N E D wf).siIdx j ⟨List.idxOf (0 : Fin 2) (rowsScatter N E D wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- … and on the column axis at `0`. -/
theorem rows_start1 : (rowsScatter N E D wf).start j idx 1 = 0 := by
  unfold ScatterDims.start
  rw [dif_neg (fun h => Nat.one_ne_zero (congrArg Fin.val (List.mem_singleton.mp h)))]

/-- The row axis is inserted: no window coordinate there … -/
theorem rows_window0 : (rowsScatter N E D wf).window j 0 = 0 := by
  unfold ScatterDims.window
  rw [dif_neg (fun h => (mem_sKept _ _).mp h (List.mem_singleton.mpr rfl))]

/-- … and the column axis's window coordinate is the update's column. -/
theorem rows_window1 : (rowsScatter N E D wf).window j 1 = (j 1).val := by
  have hk : (1 : Fin 2) ∈ (rowsScatter N E D wf).sKept :=
    (mem_sKept _ _).mpr (fun h => Nat.one_ne_zero (congrArg Fin.val (List.mem_singleton.mp h)))
  unfold ScatterDims.window
  rw [dif_pos hk]
  rfl

/-- THE KEY FACT: update `(e, q')` lands at `(n, q)` exactly when the index of row `e`, read signed, is `n`, and
    `q' = q`. -/
theorem rows_resultIdx?_iff (n : Fin N) (q : Fin D) :
    (rowsScatter N E D wf).resultIdx? j idx = some (ix2 n q)
      ↔ (idx (ix2 (j 0) 0)).toInt = (n.val : Int) ∧ j 1 = q := by
  have fin2 : ∀ a : Fin 2, a = 0 ∨ a = 1 := by decide
  rw [resultIdx?_eq_some_iff]
  constructor
  · intro h
    have h0 : (rowsScatter N E D wf).start j idx 0 + ((rowsScatter N E D wf).window j 0 : Int) = (n.val : Int) := h 0
    have h1 : (rowsScatter N E D wf).start j idx 1 + ((rowsScatter N E D wf).window j 1 : Int) = (q.val : Int) := h 1
    rw [rows_start0, rows_window0] at h0
    rw [rows_start1, rows_window1] at h1
    refine ⟨by omega, Fin.ext ?_⟩
    omega
  · rintro ⟨h0, h1⟩ a
    rcases fin2 a with rfl | rfl
    · rw [rows_start0, rows_window0]
      show _ = (n.val : Int)
      omega
    · rw [rows_start1, rows_window1, h1]
      show _ = (q.val : Int)
      omega

end Rows

theorem scatterAdd_rows_apply (N E D : Nat) {w : Nat}
    (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (upd : (⟨2, ![E, D]⟩ : Shape).Idx → EReal)
    (n : Fin N) (q : Fin D) :
    Ideal.hostScatterAdd (rowsScatter N E D wf) x idx upd (ix2 n q)
      = x (ix2 n q) + ∑ e ∈ Finset.univ.filter (fun e : Fin E => (idx (ix2 e 0)).toInt = (n.val : Int)), upd (ix2 e q) := by
  unfold Ideal.hostScatterAdd
  show x (ix2 n q) + _ = x (ix2 n q) + _
  congr 1
  have back : ∀ j : (⟨2, ![E, D]⟩ : Shape).Idx, j 1 = q → ix2 (j 0) q = j := by
    intro j hq; rw [← hq]; exact (eq_ix2 j).symm
  refine Finset.sum_nbij' (fun j => j 0) (fun e => ix2 e q) ?_ ?_ ?_ ?_ ?_
  · intro j hj
    exact Finset.mem_filter.mpr ⟨Finset.mem_univ _,
      ((rows_resultIdx?_iff N E D wf idx j n q).mp (Finset.mem_filter.mp hj).2).1⟩
  · intro e he
    exact Finset.mem_filter.mpr ⟨Finset.mem_univ _,
      (rows_resultIdx?_iff N E D wf idx (ix2 e q) n q).mpr ⟨(Finset.mem_filter.mp he).2, rfl⟩⟩
  · intro j hj
    exact back j ((rows_resultIdx?_iff N E D wf idx j n q).mp (Finset.mem_filter.mp hj).2).2
  · intro e _; rfl
  · intro j hj
    exact congrArg upd (back j ((rows_resultIdx?_iff N E D wf idx j n q).mp (Finset.mem_filter.mp hj).2).2).symm

/-- The same for the host's accumulating scatter at the ideal values, where it is that exact sum. -/
theorem host_scatterAdd_rows_apply (N E D : Nat) {φ : FTy} {w : Nat}
    (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ)
    (n : Fin N) (q : Fin D) :
    Host.scatterAdd (F := Ideal) (rowsScatter N E D wf) x idx upd (ix2 n q)
      = x (ix2 n q) + ∑ e ∈ Finset.univ.filter (fun e : Fin E => (idx (ix2 e 0)).toInt = (n.val : Int)), upd (ix2 e q) :=
  scatterAdd_rows_apply N E D wf x idx upd n q

end Cert.LibRows

end
-- ==== Proof.KHost1.lean ====
/-
  The host operations between the two regions: the two propagations.

  From the contents `W` of the buffers when region 0 has ended — the scaled projections Zs [100000, 4], the scale
  column ν, the source and target indices — the stretch gathers Zs's rows along the edges, sums them into the target
  nodes and scales by ν (the first propagation, four columns at once), takes columns 0–1 as P1 and columns 2–3, scaled
  by ν again, through a second gather, sum and scale, as PP2. Z0 is not touched.
-/
import proofs.«410256_j61907658605175_3_alg».proof.Proof.Gen.KernelIdeal.Frame
import proofs.«410256_j61907658605175_3_alg».proof.Proof.Iface
import proofs.«410256_j61907658605175_3_alg».proof.Proof.LibRows
import proofs.«410256_j61907658605175_3_alg».proof.Proof.LibLayout2
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.KernelIdeal.Host1

open Cert.KernelIdeal Cert.KernelIdeal.Gen Cert.Iface Idealize.ShloMosaic Idealize.ShloMosaic.TcCoe Idealize.ShloMosaic.ValueIdx Idealize.SL.Sem Idealize.ShloMosaic.StableHlo

variable (W : Valuation τ sig (Elt Ideal))

/-- What the stretch reads, as it finds it, and the two arrays it makes for region 1, each at its literal type. -/
abbrev zsW : FVec Ideal S100000x4 .f32 := W (Proc.devRef .tc main_v44_1)
abbrev nuW : FVec Ideal S100000x1 .f32 := W (Proc.devRef .tc main_v7)
abbrev srcW : IVec S3200000 32 := W (Proc.devRef .tc main_arg2)
abbrev dstW : IVec S3200000 32 := W (Proc.devRef .tc main_arg3)
abbrev p1W : FVec Ideal S100000x2 .f32 := StableHlo.after (hostOps1 (F := Ideal)) W (Proc.devRef .tc main_v57)
abbrev pp2W : FVec Ideal S100000x2 .f32 := StableHlo.after (hostOps1 (F := Ideal)) W (Proc.devRef .tc main_v72)

open Cert.LibRows Cert.LibLayout2

/-- The zero array each sum starts from, read at an entry. -/
theorem zero_entry (D : Nat) (hz : (⟨0, ![]⟩ : Shape).BroadcastsInDim ⟨2, ![100000, D]⟩ ![]) (n : Fin 100000) (q : Fin D) :
    (broadcastInDim ⟨2, ![100000, D]⟩ ![] hz (constant (F := Ideal) ⟨0, ![]⟩ .f32 0x00000000#32) (ix2 n q) : EReal) = 0 := by
  refine (broadcastInDim_apply _ hz _ (ix2 n q) (fun a => a.elim0) (fun a => a.elim0)).trans ?_
  rw [constant_apply]
  exact Ideal.ofBits_zero_f32

/-- One propagation of a table t : [100000, D], read at entry (n, q): the rows t[src e] of the edges e whose target
    is n, summed from zero, times the scale of n. -/
theorem prop_entry (D : Nat)
    (gwf : GatherDims.WF ⟨2, ![100000, D]⟩ ⟨2, ![3200000, 1]⟩ ⟨2, ![3200000, D]⟩ [1] [0] [] [0] [] 1 ![1, D])
    (swf : ScatterDims.WF ⟨2, ![100000, D]⟩ ⟨2, ![3200000, 1]⟩ ⟨2, ![3200000, D]⟩ [1] [0] [0] 1)
    (hz : (⟨0, ![]⟩ : Shape).BroadcastsInDim ⟨2, ![100000, D]⟩ ![])
    (hn : (⟨2, ![100000, 1]⟩ : Shape).BroadcastsInDim ⟨2, ![100000, D]⟩ ![0, 1])
    (t : FVec Ideal ⟨2, ![100000, D]⟩ .f32) (src dst : IVec ⟨2, ![3200000, 1]⟩ 32) (nu : FVec Ideal ⟨2, ![100000, 1]⟩ .f32)
    (n : Fin 100000) (q : Fin D) :
    (mulf (Host.scatterAdd (F := Ideal) (rowsScatter 100000 3200000 D swf)
        (broadcastInDim ⟨2, ![100000, D]⟩ ![] hz (constant (F := Ideal) ⟨0, ![]⟩ .f32 0x00000000#32)) dst
        (Host.gather (rowsGather 100000 3200000 D gwf) t src))
      (broadcastInDim ⟨2, ![100000, D]⟩ ![0, 1] hn nu) (ix2 n q) : EReal)
    = (0 + ∑ e ∈ inbOf dst n, (t (ix2 (rowOf src e) q) : EReal)) * (nu (ix2 n 0) : EReal) := by
  rw [mulf_apply]
  rw [bcast_col_apply nu hn n q]
  rw [host_scatterAdd_rows_apply 100000 3200000 D swf _ dst _ n q]
  rw [zero_entry D hz n q]
  refine congrArg (fun s : EReal => (0 + s) * (nu (ix2 n 0) : EReal)) ?_
  refine Finset.sum_congr rfl fun e _ => ?_
  exact gather_rows_apply 100000 3200000 D (Nat.succ_pos _) gwf t src e q

/-- The first propagation, its four columns at once: Zs's rows gathered along the edges, summed into the target
    nodes, scaled by ν. -/
def prop4 : FVec Ideal S100000x4 .f32 :=
  mulf (Host.scatterAdd (F := Ideal) (rowsScatter 100000 3200000 4 scatter_S100000x4_S3200000x1_S3200000x4_1_0_0_1_wf)
      (broadcastInDim S100000x4 ![] bcast_S_S100000x4 (constant (F := Ideal) S_ .f32 0x00000000#32)) (dstIdx (dstW W))
      (Host.gather (rowsGather 100000 3200000 4 gather_S100000x4_S3200000x1_S3200000x4_1_0_n_n_0_1_14_wf) (zsW W) (srcIdx (srcW W))))
    (broadcastInDim S100000x4 ![0, 1] bcast_S100000x1_S100000x4_0_1 (nuW W))

theorem prop4_entry (n : Fin 100000) (q : Fin 4) :
    (prop4 W (ix2 n q) : EReal)
      = (0 + ∑ e ∈ inbOf (dstIdx (dstW W)) n, (zsW W (ix2 (rowOf (srcIdx (srcW W)) e) q) : EReal)) * (nuW W (ix2 n 0) : EReal) :=
  prop_entry 4 _ _ _ _ (zsW W) (srcIdx (srcW W)) (dstIdx (dstW W)) (nuW W) n q

/-- Columns 2–3 of the first propagation, scaled by ν once more: what the second propagation carries. -/
def mid2 : FVec Ideal S100000x2 .f32 :=
  mulf (extractStridedSlice S100000x2 ![0, 2] (prop4 W) slices_S100000x4_S100000x2_0_2)
    (broadcastInDim S100000x2 ![0, 1] bcast_S100000x1_S100000x2_0_1 (nuW W))

theorem mid2_entry (n : Fin 100000) (j : Fin 2) :
    (mid2 W (ix2 n j) : EReal) = (prop4 W (ix2 n (⟨j.val + 2, by omega⟩ : Fin 4)) : EReal) * (nuW W (ix2 n 0) : EReal) := by
  unfold mid2
  rw [mulf_apply, bcast_col_apply (nuW W) bcast_S100000x1_S100000x2_0_1 n j]
  rw [extractStridedSlice_apply ![0, 2] (prop4 W) slices_S100000x4_S100000x2_0_2 (ix2 n j) (ix2 n (⟨j.val + 2, by omega⟩ : Fin 4))
    (fun a => match a with
      | ⟨0, _⟩ => by show n.val = 0 + n.val; omega
      | ⟨1, _⟩ => by show j.val + 2 = 2 + j.val; omega)]

/-- The second propagation, of those two columns. -/
def prop2 : FVec Ideal S100000x2 .f32 :=
  mulf (Host.scatterAdd (F := Ideal) (rowsScatter 100000 3200000 2 scatter_S100000x2_S3200000x1_S3200000x2_1_0_0_1_wf)
      (broadcastInDim S100000x2 ![] bcast_S_S100000x2 (constant (F := Ideal) S_ .f32 0x00000000#32)) (dstIdx (dstW W))
      (Host.gather (rowsGather 100000 3200000 2 gather_S100000x2_S3200000x1_S3200000x2_1_0_n_n_0_1_12_wf) (mid2 W) (srcIdx (srcW W))))
    (broadcastInDim S100000x2 ![0, 1] bcast_S100000x1_S100000x2_0_1 (nuW W))

theorem prop2_entry (n : Fin 100000) (j : Fin 2) :
    (prop2 W (ix2 n j) : EReal)
      = (0 + ∑ e ∈ inbOf (dstIdx (dstW W)) n, (mid2 W (ix2 (rowOf (srcIdx (srcW W)) e) j) : EReal)) * (nuW W (ix2 n 0) : EReal) :=
  prop_entry 2 _ _ _ _ (mid2 W) (srcIdx (srcW W)) (dstIdx (dstW W)) (nuW W) n j

set_option maxHeartbeats 400000 in
/-- What the stretch leaves in the two arrays, as the operations compose. -/
theorem p1W_eq : p1W W = extractStridedSlice S100000x2 ![0, 0] (prop4 W) slices_S100000x4_S100000x2_0_0 := by
  show StableHlo.after (hostOps1 (F := Ideal)) W (Proc.devRef .tc main_v57) = _
  after_results
  rfl

set_option maxHeartbeats 400000 in
theorem pp2W_eq : pp2W W = prop2 W := by
  show StableHlo.after (hostOps1 (F := Ideal)) W (Proc.devRef .tc main_v72) = _
  after_results_simp
  rfl

/-- The first propagation, columns 0–1: entry (n, j). -/
theorem p1_entry (n : Fin 100000) (j : Fin 2) :
    (p1W W (ix2 n j) : EReal)
      = (0 + ∑ e ∈ inbOf (dstIdx (dstW W)) n, (zsW W (ix2 (rowOf (srcIdx (srcW W)) e) (⟨j.val, by omega⟩ : Fin 4)) : EReal))
          * (nuW W (ix2 n 0) : EReal) := by
  rw [p1W_eq W]
  rw [extractStridedSlice_apply ![0, 0] (prop4 W) slices_S100000x4_S100000x2_0_0 (ix2 n j) (ix2 n (⟨j.val, by omega⟩ : Fin 4))
    (fun a => match a with
      | ⟨0, _⟩ => by show n.val = 0 + n.val; omega
      | ⟨1, _⟩ => by show j.val = 0 + j.val; omega)]
  exact prop4_entry W n _

/-- The second propagation, of columns 2–3 of the first: entry (n, j). -/
theorem pp2_entry (n : Fin 100000) (j : Fin 2) :
    (pp2W W (ix2 n j) : EReal)
      = (0 + ∑ e ∈ inbOf (dstIdx (dstW W)) n,
            (((0 + ∑ e' ∈ inbOf (dstIdx (dstW W)) (rowOf (srcIdx (srcW W)) e),
                  (zsW W (ix2 (rowOf (srcIdx (srcW W)) e') (⟨j.val + 2, by omega⟩ : Fin 4)) : EReal))
                * (nuW W (ix2 (rowOf (srcIdx (srcW W)) e) 0) : EReal))
              * (nuW W (ix2 (rowOf (srcIdx (srcW W)) e) 0) : EReal)))
          * (nuW W (ix2 n 0) : EReal) := by
  rw [pp2W_eq W, prop2_entry W n j]
  refine congrArg (fun s : EReal => (0 + s) * (nuW W (ix2 n 0) : EReal)) ?_
  refine Finset.sum_congr rfl fun e _ => ?_
  rw [mid2_entry W, prop4_entry W]

/-- The stretch writes none of the buffers region 1 reads as region 0 left them, nor the arguments. -/
theorem keep_z0 : StableHlo.after (hostOps1 (F := Ideal)) W (Proc.devRef .tc main_v44_0) = W (Proc.devRef .tc main_v44_0) := by
  after_results

end Cert.KernelIdeal.Host1

end
-- ==== Proof.KValue.lean ====
/-
  The idealized kernel's result array, entry by entry, as the refactored Chebyshev convolution of the launch arguments.

  The result buffer ends at what region 1 writes back: max ((Z0 + P1) + PP2) 0 of the three arrays region 1 finds.
  Z0 is what region 0 wrote (X · A0, the feature array and A0 as region 0 found them); P1 and PP2 are the host
  stretch's two propagations of what region 0 wrote as Zs = (X · [A1 | A2]) scaled by the node scale. Region 0 found
  the feature array as launched, A0 and [A1 | A2] as the opening host operations computed them from the weight and
  the ratio r, and the node scale the target indices give; nothing in between touches the scale or the indices.

  Each step is first stated for ANY contents of the buffers (so that it is a plain rewriting of sums), and only then
  read at the contents the run really passes through.
-/
import proofs.«410256_j61907658605175_3_alg».proof.Proof.KRegion0
import proofs.«410256_j61907658605175_3_alg».proof.Proof.KRegion1
import proofs.«410256_j61907658605175_3_alg».proof.Proof.KHost0
import proofs.«410256_j61907658605175_3_alg».proof.Proof.KHost1

set_option maxRecDepth 16384

noncomputable section

namespace Cert.KernelIdeal.KValue

open Cert.KernelIdeal Cert.KernelIdeal.Gen Cert.Iface Idealize.ShloMosaic Idealize.ShloMosaic.TcCoe Idealize.ShloMosaic.ValueIdx Idealize.SL.Sem Idealize.ShloMosaic.StableHlo

/-! ## The steps, at any contents -/

section Generic

variable (V : (c : Dev nD) → (b : Ref sig .tc) → Buf (Elt Ideal) ((c : Thread nD τ).loc b))
variable (W : Valuation τ sig (Elt Ideal))

/-- Region 0's Z0 at an entry, from what it found. -/
theorem z0_of (c : Dev nD) (x : Fin 100000 → Fin 16 → EReal) (A : Fin 16 → Fin 2 → EReal)
    (hx : ∀ i k, (Region0.xarr V c (ix2 i k) : EReal) = x i k)
    (hA : ∀ k j, (Region0.a0arr V c (ix2 k j) : EReal) = A k j) (i : Fin 100000) (j : Fin 2) :
    (Region0.z0arr V c (ix2 i j) : EReal) = ∑ k : Fin 16, x i k * A k j := by
  rw [Region0.z0_entry]
  exact Finset.sum_congr rfl fun k _ => by rw [hx, hA]

/-- Region 0's Zs at an entry, from what it found. -/
theorem zs_of (c : Dev nD) (x : Fin 100000 → Fin 16 → EReal) (M : Fin 16 → Fin 4 → EReal) (ν : Fin 100000 → EReal)
    (hx : ∀ i k, (Region0.xarr V c (ix2 i k) : EReal) = x i k)
    (hM : ∀ k j, (Region0.mbcarr V c (ix2 k j) : EReal) = M k j)
    (hν : ∀ i, (Region0.nuarr V c (ix2 i 0) : EReal) = ν i) (i : Fin 100000) (j : Fin 4) :
    (Region0.zsarr V c (ix2 i j) : EReal) = (∑ k : Fin 16, x i k * M k j) * ν i := by
  rw [Region0.zs_entry, hν]
  simp only [hx, hM]

/-- The first propagation at an entry, from what the stretch found. -/
theorem p1_of (src dst : IVec S3200000 32) (Z : Fin 100000 → Fin 4 → EReal) (ν : Fin 100000 → EReal)
    (hs : Host1.srcW W = src) (hd : Host1.dstW W = dst)
    (hZ : ∀ i j, (Host1.zsW W (ix2 i j) : EReal) = Z i j)
    (hν : ∀ i, (Host1.nuW W (ix2 i 0) : EReal) = ν i) (n : Fin 100000) (j : Fin 2) :
    (Host1.p1W W (ix2 n j) : EReal)
      = (0 + ∑ e ∈ inbOf (dstIdx dst) n, Z (rowOf (srcIdx src) e) (⟨j.val, by omega⟩ : Fin 4)) * ν n := by
  subst hs hd
  rw [Host1.p1_entry]
  simp only [hZ, hν]

/-- The second propagation at an entry, from what the stretch found. -/
theorem pp2_of (src dst : IVec S3200000 32) (Z : Fin 100000 → Fin 4 → EReal) (ν : Fin 100000 → EReal)
    (hs : Host1.srcW W = src) (hd : Host1.dstW W = dst)
    (hZ : ∀ i j, (Host1.zsW W (ix2 i j) : EReal) = Z i j)
    (hν : ∀ i, (Host1.nuW W (ix2 i 0) : EReal) = ν i) (n : Fin 100000) (j : Fin 2) :
    (Host1.pp2W W (ix2 n j) : EReal)
      = (0 + ∑ e ∈ inbOf (dstIdx dst) n,
            (((0 + ∑ e' ∈ inbOf (dstIdx dst) (rowOf (srcIdx src) e), Z (rowOf (srcIdx src) e') (⟨j.val + 2, by omega⟩ : Fin 4))
                * ν (rowOf (srcIdx src) e)) * ν (rowOf (srcIdx src) e))) * ν n := by
  subst hs hd
  rw [Host1.pp2_entry]
  simp only [hZ, hν]

/-- Region 1's result at an entry, from what it found. -/
theorem out_of (c : Dev nD) (z p q : Fin 100000 → Fin 2 → EReal)
    (hz : ∀ n j, (Region1.z0in V c (ix2 n j) : EReal) = z n j)
    (hp : ∀ n j, (Region1.p1in V c (ix2 n j) : EReal) = p n j)
    (hq : ∀ n j, (Region1.pp2in V c (ix2 n j) : EReal) = q n j) (n : Fin 100000) (j : Fin 2) :
    (Region1.outarr V c (ix2 n j) : EReal) = max ((z n j + p n j) + q n j) 0 := by
  rw [Region1.out_entry, hz, hp, hq]

end Generic

/-! ## The run's own contents -/

variable (m : (ℓ : Loc nD τ sig) → Buf (Elt Ideal) ℓ) (ρ : Dev nD → PrngReg)

/-- The result array at the last segment boundary, at its literal type. -/
abbrev outArr (c : Dev nD) : FVec Ideal S100000x2 .f32 := W6 (F := Ideal) m ρ c (Proc.devRef .tc main_v73)

/-- The launch arguments as the mathematics reads them. -/
abbrev X (c : Dev nD) : Fin 100000 → Fin 16 → EReal := xOf (Host0.xArg m c)
abbrev Wt (c : Dev nD) : Fin 2 → Fin 48 → EReal := wOf (Host0.wArg m c)
abbrev R (c : Dev nD) : EReal := rOf (Host0.lamArg m c)
abbrev Nu (c : Dev nD) : Fin 100000 → EReal := nuOf (Host0.dstArg m c)
abbrev Row (c : Dev nD) : Fin 3200000 → Fin 100000 := rowOf (srcIdx (Host0.srcArg m c))
abbrev Inb (c : Dev nD) : Fin 100000 → Finset (Fin 3200000) := inbOf (dstIdx (Host0.dstArg m c))

/-- What region 0 found. -/
theorem x3_entry (c : Dev nD) (i : Fin 100000) (k : Fin 16) :
    (Region0.xarr (V3 (F := Ideal) m ρ) c (ix2 i k) : EReal) = X m c i k :=
  congrFun (Host0.x3_eq m ρ c) (ix2 i k)

/-- What region 0 wrote as Zs, as the host stretch finds it. -/
theorem zs4 (c : Dev nD) (i : Fin 100000) (j : Fin 4) :
    (Host1.zsW (W4 (F := Ideal) m ρ c) (ix2 i j) : EReal) = Cert.Spec.kZs c1 c2 c4 (X m c) (Wt m c) (R m c) (Nu m c) i j :=
  (congrFun (W4_arr m ρ c 5) (ix2 i j)).trans
    (zs_of (V3 (F := Ideal) m ρ) c (X m c) (Cert.Spec.kMbc c1 c2 c4 (Wt m c) (R m c)) (Nu m c)
      (x3_entry m ρ c) (Host0.mbc3_entry m ρ c) (Host0.nu3_entry m ρ c) i j)

/-- The node scale, as the host stretch finds it. -/
theorem nu4 (c : Dev nD) (n : Fin 100000) : (Host1.nuW (W4 (F := Ideal) m ρ c) (ix2 n 0) : EReal) = Nu m c n :=
  (congrFun (Host0.W4_nu m ρ c) (ix2 n 0)).trans (Host0.nu3_entry m ρ c n)

/-- What region 0 wrote as Z0, as region 1 finds it. -/
theorem z05 (c : Dev nD) (n : Fin 100000) (j : Fin 2) :
    (Region1.z0in (V5 (F := Ideal) m ρ) c (ix2 n j) : EReal) = Cert.Spec.kZ0 c1 c2 (X m c) (Wt m c) (R m c) n j :=
  (congrFun ((Host1.keep_z0 (W4 (F := Ideal) m ρ c)).trans (W4_arr m ρ c 4)) (ix2 n j)).trans
    (z0_of (V3 (F := Ideal) m ρ) c (X m c) (Cert.Spec.kA0 c1 c2 (Wt m c) (R m c))
      (x3_entry m ρ c) (Host0.a03_entry m ρ c) n j)

/-- The first propagation, as region 1 finds it. -/
theorem p15 (c : Dev nD) (n : Fin 100000) (j : Fin 2) :
    (Region1.p1in (V5 (F := Ideal) m ρ) c (ix2 n j) : EReal)
      = Cert.Spec.kComb c1 c2 c4 (X m c) (Wt m c) (R m c) (Nu m c) (Row m c) (Inb m c) n (⟨j.val, by omega⟩ : Fin 4) :=
  p1_of (W4 (F := Ideal) m ρ c) (Host0.srcArg m c) (Host0.dstArg m c)
    (Cert.Spec.kZs c1 c2 c4 (X m c) (Wt m c) (R m c) (Nu m c)) (Nu m c)
    (Host0.W4_src m ρ c) (Host0.W4_dst m ρ c) (zs4 m ρ c) (nu4 m ρ c) n j

/-- The second propagation, as region 1 finds it. -/
theorem pp25 (c : Dev nD) (n : Fin 100000) (j : Fin 2) :
    (Region1.pp2in (V5 (F := Ideal) m ρ) c (ix2 n j) : EReal)
      = Cert.Spec.kPP2 c1 c2 c4 (X m c) (Wt m c) (R m c) (Nu m c) (Row m c) (Inb m c) n j :=
  pp2_of (W4 (F := Ideal) m ρ c) (Host0.srcArg m c) (Host0.dstArg m c)
    (Cert.Spec.kZs c1 c2 c4 (X m c) (Wt m c) (R m c) (Nu m c)) (Nu m c)
    (Host0.W4_src m ρ c) (Host0.W4_dst m ρ c) (zs4 m ρ c) (nu4 m ρ c) n j

/-- THE RESULT, entry (n, j): the kernel's side of the specification at the launch arguments. -/
theorem out_entry (c : Dev nD) (n : Fin 100000) (j : Fin 2) :
    (outArr m ρ c (ix2 n j) : EReal)
      = Cert.Spec.ker c1 c2 c4 (X m c) (Wt m c) (R m c) (Nu m c) (Row m c) (Inb m c) n j :=
  (congrFun (W6_arr m ρ c 3) (ix2 n j)).trans
    (out_of (V5 (F := Ideal) m ρ) c (Cert.Spec.kZ0 c1 c2 (X m c) (Wt m c) (R m c))
      (fun n j => Cert.Spec.kComb c1 c2 c4 (X m c) (Wt m c) (R m c) (Nu m c) (Row m c) (Inb m c) n (⟨j.val, by omega⟩ : Fin 4))
      (Cert.Spec.kPP2 c1 c2 c4 (X m c) (Wt m c) (R m c) (Nu m c) (Row m c) (Inb m c))
      (z05 m ρ c) (p15 m ρ c) (pp25 m ρ c) n j)

end Cert.KernelIdeal.KValue

end
-- ==== Proof.RefSide.lean ====
/-
  The reference's last stage, read at an entry, is the Chebyshev expression of the inputs.

  Stage by stage at an entry (n, k): the scaled features, the gathered rows, the segment sums, the two
  propagations P X and P X1, the recursion X1, X2, the 48 joined columns [X | X1 | X2], the contraction
  with the transposed weight, and the final maximum with 0.
-/
import proofs.«410256_j61907658605175_3_alg».proof.Proof.Iface
import proofs.«410256_j61907658605175_3_alg».proof.Proof.LibRows
import Idealize.ShloMosaic.Lib.ValueIdx
import Idealize.ShloMosaic.Lib.Pipeline.Value
import Idealize.ShloMosaic.PureOps.Ideal.Laws

noncomputable section

namespace Cert.RefSide

open Cert.Iface Idealize.ShloMosaic Idealize.ShloMosaic.ValueIdx Cert.ReferenceIdeal Cert.ReferenceIdeal.Read

/-! ## One propagation step and the joined columns, over abstract nodes and edges -/

section Abstract
variable {ι ε : Type}

/-- Scale, gather along the edges, sum into the targets, scale again: one propagation of the columns y. -/
theorem prop_abs (y : ι → Fin 16 → EReal) (ν : ι → EReal) (row : ε → ι) (inb : ι → Finset ε)
    (v13 : ι → Fin 16 → EReal) (v20 : ε → Fin 16 → EReal) (v23 v25 : ι → Fin 16 → EReal)
    (h13 : ∀ i k, v13 i k = y i k * ν i) (h20 : ∀ e k, v20 e k = v13 (row e) k)
    (h23 : ∀ n k, v23 n k = 0 + ∑ e ∈ inb n, v20 e k) (h25 : ∀ n k, v25 n k = v23 n k * ν n)
    (n : ι) (k : Fin 16) : v25 n k = Cert.Spec.rP1 y ν row inb n k := by
  simp only [h25, h23, h20, h13, Cert.Spec.rP1]

/-- The second propagation is the first one applied to the columns X1. -/
theorem prop2_abs (c1 r : EReal) (x : ι → Fin 16 → EReal) (ν : ι → EReal) (row : ε → ι) (inb : ι → Finset ε)
    (v13 : ι → Fin 16 → EReal) (v20 : ε → Fin 16 → EReal) (v23 v25 : ι → Fin 16 → EReal)
    (h13 : ∀ i k, v13 i k = Cert.Spec.rX1 c1 x r ν row inb i k * ν i) (h20 : ∀ e k, v20 e k = v13 (row e) k)
    (h23 : ∀ n k, v23 n k = 0 + ∑ e ∈ inb n, v20 e k) (h25 : ∀ n k, v25 n k = v23 n k * ν n)
    (n : ι) (k : Fin 16) : v25 n k = Cert.Spec.rP2 c1 x r ν row inb n k :=
  prop_abs (Cert.Spec.rX1 c1 x r ν row inb) ν row inb v13 v20 v23 v25 h13 h20 h23 h25 n k

end Abstract

variable (x0 : (⟨S100000x16, .f32⟩ : BufTy).Contents (Elt Ideal)) (x1 : (⟨S2x48, .f32⟩ : BufTy).Contents (Elt Ideal))
  (x2 x3 : (⟨S3200000, .i32⟩ : BufTy).Contents (Elt Ideal)) (x4 : (⟨S1, .f32⟩ : BufTy).Contents (Elt Ideal))

/-! ## The scale column broadcast over the 16 feature columns -/

/-- The broadcast of a column [100000, 1] over 16 columns reads row n of the column. -/
theorem idx12_at (n : Fin 100000) (k : Fin 16) : idx_main_v12 (ix2 n k) = ix2 n (0 : Fin 1) :=
  funext fun a => Fin.ext (by match a with | ⟨0, _⟩ => rfl | ⟨1, _⟩ => rfl)

/-- The scale of node n, at every feature column. -/
theorem nu_at (n : Fin 100000) (k : Fin 16) : val_main_v12 (F := Ideal) x3 (ix2 n k) = nuOf x3 n := by
  rw [val_main_v12_apply, idx12_at]; rfl

/-- The scaled features: X ∘ ν. -/
theorem v13_at (i : Fin 100000) (k : Fin 16) :
    val_main_v13 (F := Ideal) x0 x3 (ix2 i k) = xOf x0 i k * nuOf x3 i := by
  rw [val_main_v13_apply, nu_at]; rfl

/-! ## The first propagation -/

/-- A gathered row is the table's row at the clamped start index. -/
theorem gather_at (y : (⟨S100000x16, .f32⟩ : BufTy).Contents (Elt Ideal))
    (idx : (⟨S3200000x1, .i32⟩ : BufTy).Contents (Elt Ideal)) (e : Fin 3200000) (k : Fin 16) :
    Host.gather gather_S100000x16_S3200000x1_S3200000x16_1_0_n_n_0_1_116 y idx (ix2 e k)
      = y (ix2 (rowOf idx e) k) :=
  Cert.LibRows.gather_rows_apply 100000 3200000 16 (Nat.succ_pos _)
    gather_S100000x16_S3200000x1_S3200000x16_1_0_n_n_0_1_116.wf y idx e k

/-- A segment sum at (n, k): the operand's entry plus the rows of the edges whose target is n. -/
theorem scatter_at (z : (⟨S100000x16, .f32⟩ : BufTy).Contents (Elt Ideal))
    (idx : (⟨S3200000x1, .i32⟩ : BufTy).Contents (Elt Ideal))
    (u : (⟨S3200000x16, .f32⟩ : BufTy).Contents (Elt Ideal)) (n : Fin 100000) (k : Fin 16) :
    Host.scatterAdd (F := Ideal) (φ := .f32) scatter_S100000x16_S3200000x1_S3200000x16_1_0_0_1 z idx u (ix2 n k)
      = z (ix2 n k) + ∑ e ∈ inbOf idx n, u (ix2 e k) :=
  Cert.LibRows.host_scatterAdd_rows_apply 100000 3200000 16
    scatter_S100000x16_S3200000x1_S3200000x16_1_0_0_1.wf z idx u n k

/-- The scaled features gathered along the edges. -/
theorem v20_at (e : Fin 3200000) (k : Fin 16) :
    val_main_v20 (F := Ideal) x0 x2 x3 (ix2 e k)
      = val_main_v13 (F := Ideal) x0 x3 (ix2 (rowOf (srcIdx x2) e) k) :=
  gather_at (val_main_v13 (F := Ideal) x0 x3) (srcIdx x2) e k

/-- The zero operand of the segment sums. -/
theorem v21_at (i : S100000x16.Idx) : val_main_v21 (F := Ideal) i = 0 := by
  rw [val_main_v21_apply, val_main_cst_5_apply]
  exact Ideal.ofBits_zero_f32

/-- The first segment sum. -/
theorem v23_at (n : Fin 100000) (k : Fin 16) :
    val_main_v23 (F := Ideal) x0 x2 x3 (ix2 n k)
      = 0 + ∑ e ∈ inbOf (dstIdx x3) n, val_main_v20 (F := Ideal) x0 x2 x3 (ix2 e k) :=
  (scatter_at (val_main_v21 (F := Ideal)) (dstIdx x3) (val_main_v20 (F := Ideal) x0 x2 x3) n k).trans
    (congrArg (fun z => z + ∑ e ∈ inbOf (dstIdx x3) n, val_main_v20 (F := Ideal) x0 x2 x3 (ix2 e k))
      (v21_at (ix2 n k)))

/-- The scale of node n once more, for the sum's result. -/
theorem nu24_at (n : Fin 100000) (k : Fin 16) : val_main_v24 (F := Ideal) x3 (ix2 n k) = nuOf x3 n :=
  nu_at x3 n k

theorem v25_at (n : Fin 100000) (k : Fin 16) :
    val_main_v25 (F := Ideal) x0 x2 x3 (ix2 n k) = val_main_v23 (F := Ideal) x0 x2 x3 (ix2 n k) * nuOf x3 n := by
  rw [val_main_v25_apply, nu24_at]; rfl

/-- The first propagation, P X. -/
theorem P1_at (n : Fin 100000) (k : Fin 16) :
    val_main_v25 (F := Ideal) x0 x2 x3 (ix2 n k)
      = Cert.Spec.rP1 (xOf x0) (nuOf x3) (rowOf (srcIdx x2)) (inbOf (dstIdx x3)) n k :=
  prop_abs (xOf x0) (nuOf x3) (rowOf (srcIdx x2)) (inbOf (dstIdx x3))
    (fun i k => val_main_v13 (F := Ideal) x0 x3 (ix2 i k)) (fun e k => val_main_v20 (F := Ideal) x0 x2 x3 (ix2 e k))
    (fun n k => val_main_v23 (F := Ideal) x0 x2 x3 (ix2 n k)) (fun n k => val_main_v25 (F := Ideal) x0 x2 x3 (ix2 n k))
    (v13_at x0 x3) (v20_at x0 x2 x3) (v23_at x0 x2 x3) (v25_at x0 x2 x3) n k

/-! ## The scalar 2 / lambda_max and the coefficients built from it -/

theorem idx10_at (i : S1x1.Idx) : idx_main_v10 i = ix1 (0 : Fin 1) :=
  funext fun a => Fin.ext (by match a with | ⟨0, _⟩ => rfl)

/-- The ratio r = 2 / lambda_max, at the one entry of its [1, 1] array. -/
theorem r_at (i : S1x1.Idx) : val_main_v10 (F := Ideal) x4 i = rOf x4 := by
  rw [val_main_v10_apply, idx10_at, val_main_v9_apply, val_main_v8_apply, val_main_cst_3_apply]; rfl

/-- -r, broadcast. -/
theorem v26_at (i : S100000x16.Idx) : val_main_v26 (F := Ideal) x4 i = -rOf x4 := by
  rw [val_main_v26_apply, val_main_v11_apply, r_at]; rfl

/-- r - 1, broadcast. -/
theorem v30_at (i : S100000x16.Idx) : val_main_v30 (F := Ideal) x4 i = rOf x4 - c1 := by
  rw [val_main_v30_apply, val_main_v29_apply, r_at, val_main_v28_apply, val_main_cst_6_apply]; rfl

/-- -2 · r, broadcast. -/
theorem v49_at (i : S100000x16.Idx) : val_main_v49 (F := Ideal) x4 i = cm2 * rOf x4 := by
  rw [val_main_v49_apply, val_main_v34_apply, r_at, val_main_v33_apply, val_main_cst_7_apply]; rfl

/-- 2 · (r - 1), broadcast. -/
theorem v55_at (i : S100000x16.Idx) : val_main_v55 (F := Ideal) x4 i = c2 * (rOf x4 - c1) := by
  rw [val_main_v55_apply, val_main_v54_apply, val_main_v52_apply, r_at, val_main_v53_apply, val_main_cst_12_apply,
    val_main_v51_apply, val_main_cst_11_apply]; rfl

/-! ## X1, the second propagation, X2 -/

/-- X1 = (-r) · P X + X · (r - 1). -/
theorem X1_at (n : Fin 100000) (k : Fin 16) :
    val_main_v32 (F := Ideal) x0 x2 x3 x4 (ix2 n k)
      = Cert.Spec.rX1 c1 (xOf x0) (rOf x4) (nuOf x3) (rowOf (srcIdx x2)) (inbOf (dstIdx x3)) n k := by
  rw [val_main_v32_apply, val_main_v27_apply, val_main_v31_apply, v26_at, v30_at, P1_at]; rfl

theorem nu35_at (n : Fin 100000) (k : Fin 16) : val_main_v35 (F := Ideal) x3 (ix2 n k) = nuOf x3 n :=
  nu_at x3 n k

theorem nu47_at (n : Fin 100000) (k : Fin 16) : val_main_v47 (F := Ideal) x3 (ix2 n k) = nuOf x3 n :=
  nu_at x3 n k

/-- The scaled X1. -/
theorem v36_at (i : Fin 100000) (k : Fin 16) :
    val_main_v36 (F := Ideal) x0 x2 x3 x4 (ix2 i k)
      = Cert.Spec.rX1 c1 (xOf x0) (rOf x4) (nuOf x3) (rowOf (srcIdx x2)) (inbOf (dstIdx x3)) i k * nuOf x3 i := by
  rw [val_main_v36_apply, X1_at, nu35_at]; rfl

/-- The second gather reads the same start indices as the first. -/
theorem v42_eq : val_main_v42 (F := Ideal) x2 = srcIdx x2 := rfl

theorem v43_at (e : Fin 3200000) (k : Fin 16) :
    val_main_v43 (F := Ideal) x0 x2 x3 x4 (ix2 e k)
      = val_main_v36 (F := Ideal) x0 x2 x3 x4 (ix2 (rowOf (srcIdx x2) e) k) :=
  gather_at (val_main_v36 (F := Ideal) x0 x2 x3 x4) (srcIdx x2) e k

theorem v44_at (i : S100000x16.Idx) : val_main_v44 (F := Ideal) i = 0 := by
  rw [val_main_v44_apply, val_main_cst_10_apply]
  exact Ideal.ofBits_zero_f32

/-- The second segment sum. -/
theorem v46_at (n : Fin 100000) (k : Fin 16) :
    val_main_v46 (F := Ideal) x0 x2 x3 x4 (ix2 n k)
      = 0 + ∑ e ∈ inbOf (dstIdx x3) n, val_main_v43 (F := Ideal) x0 x2 x3 x4 (ix2 e k) :=
  (scatter_at (val_main_v44 (F := Ideal)) (dstIdx x3) (val_main_v43 (F := Ideal) x0 x2 x3 x4) n k).trans
    (congrArg (fun z => z + ∑ e ∈ inbOf (dstIdx x3) n, val_main_v43 (F := Ideal) x0 x2 x3 x4 (ix2 e k))
      (v44_at (ix2 n k)))

theorem v48_at (n : Fin 100000) (k : Fin 16) :
    val_main_v48 (F := Ideal) x0 x2 x3 x4 (ix2 n k)
      = val_main_v46 (F := Ideal) x0 x2 x3 x4 (ix2 n k) * nuOf x3 n := by
  rw [val_main_v48_apply, nu47_at]; rfl

/-- The second propagation, P X1. -/
theorem P2_at (n : Fin 100000) (k : Fin 16) :
    val_main_v48 (F := Ideal) x0 x2 x3 x4 (ix2 n k)
      = Cert.Spec.rP2 c1 (xOf x0) (rOf x4) (nuOf x3) (rowOf (srcIdx x2)) (inbOf (dstIdx x3)) n k :=
  prop2_abs c1 (rOf x4) (xOf x0) (nuOf x3) (rowOf (srcIdx x2)) (inbOf (dstIdx x3))
    (fun i k => val_main_v36 (F := Ideal) x0 x2 x3 x4 (ix2 i k))
    (fun e k => val_main_v43 (F := Ideal) x0 x2 x3 x4 (ix2 e k))
    (fun n k => val_main_v46 (F := Ideal) x0 x2 x3 x4 (ix2 n k))
    (fun n k => val_main_v48 (F := Ideal) x0 x2 x3 x4 (ix2 n k))
    (v36_at x0 x2 x3 x4) (v43_at x0 x2 x3 x4) (v46_at x0 x2 x3 x4) (v48_at x0 x2 x3 x4) n k

/-- X2 = ((-2 · r) · P X1 + X1 · (2 · (r - 1))) - X. -/
theorem X2_at (n : Fin 100000) (k : Fin 16) :
    val_main_v58 (F := Ideal) x0 x2 x3 x4 (ix2 n k)
      = Cert.Spec.rX2 c1 c2 cm2 (xOf x0) (rOf x4) (nuOf x3) (rowOf (srcIdx x2)) (inbOf (dstIdx x3)) n k := by
  rw [val_main_v58_apply, val_main_v57_apply, val_main_v50_apply, val_main_v56_apply, v49_at, v55_at, P2_at, X1_at]
  rfl

/-! ## The 48 joined columns, the transposed weight, the contraction, the maximum with 0 -/

/-- Three 16-column blocks joined along the columns, read at (n, q): block q / 16 at column q % 16. -/
theorem concat3_at (A B C : (⟨S100000x16, .f32⟩ : BufTy).Contents (Elt Ideal)) (n : Fin 100000) (q : Fin 48) :
    concatenate S100000x48 1 [⟨S100000x16, A⟩, ⟨S100000x16, B⟩, ⟨S100000x16, C⟩]
        Facts₀.concatenates_S100000x16_S100000x16_S100000x16_S100000x48_d1 (ix2 n q)
      = if h : q.val < 16 then A (ix2 n ⟨q.val, h⟩)
        else if h' : q.val < 32 then B (ix2 n ⟨q.val - 16, by omega⟩)
        else C (ix2 n ⟨q.val - 32, by omega⟩) := by
  by_cases h : q.val < 16
  · rw [dif_pos h]
    exact concatenate_apply_piece 1 _ _ (ix2 n q) 0 (by show (0 : Nat) < 3; omega) S100000x16 A rfl rfl 0 rfl (ix2 n ⟨q.val, h⟩)
      (fun b hb => by match b with | ⟨0, _⟩ => rfl | ⟨1, _⟩ => exact absurd rfl hb)
      (Nat.zero_add _)
  · rw [dif_neg h]
    by_cases h' : q.val < 32
    · rw [dif_pos h']
      exact concatenate_apply_piece 1 _ _ (ix2 n q) 1 (by show (1 : Nat) < 3; omega) S100000x16 B rfl rfl 16 rfl
        (ix2 n ⟨q.val - 16, by omega⟩)
        (fun b hb => by match b with | ⟨0, _⟩ => rfl | ⟨1, _⟩ => exact absurd rfl hb)
        (by show 16 + (q.val - 16) = q.val; omega)
    · rw [dif_neg h']
      exact concatenate_apply_piece 1 _ _ (ix2 n q) 2 (by show (2 : Nat) < 3; omega) S100000x16 C rfl rfl 32 rfl
        (ix2 n ⟨q.val - 32, by omega⟩)
        (fun b hb => by match b with | ⟨0, _⟩ => rfl | ⟨1, _⟩ => exact absurd rfl hb)
        (by show 32 + (q.val - 32) = q.val; omega)

/-- [X | X1 | X2] at (n, q). -/
theorem Xt_at (n : Fin 100000) (q : Fin 48) :
    val_main_v59 (F := Ideal) x0 x2 x3 x4 (ix2 n q)
      = Cert.Spec.rXt c1 c2 cm2 (xOf x0) (rOf x4) (nuOf x3) (rowOf (srcIdx x2)) (inbOf (dstIdx x3)) n q := by
  refine (concat3_at x0 (val_main_v32 (F := Ideal) x0 x2 x3 x4) (val_main_v58 (F := Ideal) x0 x2 x3 x4) n q).trans ?_
  unfold Cert.Spec.rXt
  by_cases h : q.val < 16
  · rw [dif_pos h, dif_pos h]; rfl
  · rw [dif_neg h, dif_neg h]
    by_cases h' : q.val < 32
    · rw [dif_pos h', dif_pos h', X1_at]
    · rw [dif_neg h', dif_neg h', X2_at]

theorem idx60_at (q : Fin 48) (j : Fin 2) : idx_main_v60 (ix2 q j) = ix2 j q :=
  funext fun a => Fin.ext (by match a with | ⟨0, _⟩ => rfl | ⟨1, _⟩ => rfl)

/-- The transposed weight at (q, j) is the weight at (j, q). -/
theorem W_at (q : Fin 48) (j : Fin 2) : val_main_v60 (F := Ideal) x1 (ix2 q j) = wOf x1 j q := by
  rw [val_main_v60_apply, idx60_at]; rfl

theorem lidx61_at (n : Fin 100000) (j : Fin 2) (q : Fin 48) : lidx_main_v61 (ix2 n j) q = ix2 n q :=
  funext fun a => Fin.ext (by match a with | ⟨0, _⟩ => rfl | ⟨1, _⟩ => rfl)

theorem ridx61_at (n : Fin 100000) (j : Fin 2) (q : Fin 48) : ridx_main_v61 (ix2 n j) q = ix2 q j :=
  funext fun a => Fin.ext (by match a with | ⟨0, _⟩ => rfl | ⟨1, _⟩ => rfl)

/-- The contraction of the 48 joined columns with the weight. -/
theorem v61_at (n : Fin 100000) (j : Fin 2) :
    val_main_v61 (F := Ideal) x0 x1 x2 x3 x4 (ix2 n j)
      = ∑ q : Fin 48, Cert.Spec.rXt c1 c2 cm2 (xOf x0) (rOf x4) (nuOf x3) (rowOf (srcIdx x2)) (inbOf (dstIdx x3)) n q
          * wOf x1 j q := by
  rw [val_main_v61_apply]
  refine Finset.sum_congr rfl fun q _ => ?_
  rw [lidx61_at, ridx61_at, Xt_at, W_at]

/-- The reference's last stage at an entry is the specification's expression of the inputs. -/
theorem ref_value (n : Fin 100000) (j : Fin 2) :
    val_main_v62 (F := Ideal) x0 x1 x2 x3 x4 (ix2 n j)
      = Cert.Spec.ref c1 c2 cm2 (xOf x0) (wOf x1) (rOf x4) (nuOf x3) (rowOf (srcIdx x2)) (inbOf (dstIdx x3)) n j := by
  rw [val_main_v62_apply, v61_at, val_main_call1_v0_apply, val_main_call1_cst_apply, Ideal.ofBits_def,
    Ideal.ofBits_zero_f32]
  rfl

end Cert.RefSide

end
-- ==== Proof.PreFacts.lean ====
/-
  What the precondition gives, and what needs none.

  The precondition says every feature, every weight and lambda_max is finite — its absolute value is below +∞ — and
  lambda_max is not zero. On the extended reals that makes each of them a real number, and the ratio
  r = 2 / lambda_max a real number too (a quotient by a nonzero real). The node scale needs no precondition: the
  in-degree is a finite sum of ones, its maximum with 1 is a real number at least 1, and a real power of it is real,
  whatever the indices are. The float constants the programs carry are 1, 2, 4 and -2.
-/
import proofs.«410256_j61907658605175_3_alg».proof.Proof.Iface
import proofs.«410256_j61907658605175_3_alg».proof.Pre_finite_inputs
import proofs.«410256_j61907658605175_3_alg».proof.Proof.Gen.Pre_finite_inputs
import Idealize.ShloMosaic.Lib.ReduceAll
import Idealize.ShloMosaic.Lib.ValueIdx
import Idealize.ShloMosaic.PureOps.Ideal.Laws

noncomputable section

namespace Cert.PreFacts

open Cert.Iface Idealize.ShloMosaic Idealize.ShloMosaic.ValueIdx

/-! ## The bit patterns, read once -/

/-- The four float constants. -/
theorem c1_eq : c1 = ((1 : ℝ) : EReal) := by
  unfold c1
  simp [Ideal.ofBits, Ideal.ieee, -EReal.coe_mul]; norm_num
theorem c2_eq : c2 = ((2 : ℝ) : EReal) := by
  unfold c2
  simp [Ideal.ofBits, Ideal.ieee, -EReal.coe_mul]; norm_num
theorem c4_eq : c4 = ((4 : ℝ) : EReal) := by
  unfold c4
  simp [Ideal.ofBits, Ideal.ieee, -EReal.coe_mul]; norm_num
theorem cm2_eq : cm2 = ((-2 : ℝ) : EReal) := by
  unfold cm2
  simp [Ideal.ofBits, Ideal.ieee, -EReal.coe_mul]; norm_num

/-- The pattern with all exponent bits set and no fraction bits is +∞. -/
theorem inf_eq : Ideal.ofBits .f32 0x7F800000#32 = (⊤ : EReal) := by
  simp [Ideal.ofBits, Ideal.ieee]

/-- The exponent of the node scale, -1/2. -/
theorem mhalf_eq : Ideal.ofBits .f32 0xBF000000#32 = ((-(1/2) : ℝ) : EReal) := by
  simp [Ideal.ofBits, Ideal.ieee, -EReal.coe_mul]; norm_num

/-! ## Finite means real -/

/-- The scalar shape has one index. -/
instance : Subsingleton Cert.Pre_finite_inputs.S_.Idx := ⟨fun a b => funext fun d => d.elim0⟩

/-- An extended real whose absolute value max x (-x) is below +∞ is a real number: at -∞ and at +∞ the absolute
    value is +∞. -/
theorem real_of_abs_lt_top (x : EReal) (h : max x (-x) < ⊤) : ∃ a : ℝ, x = (a : EReal) := by
  induction x using EReal.rec with
  | bot => simp at h
  | coe a => exact ⟨a, rfl⟩
  | top => simp at h

/-- The comparison |x| < +∞ answering 1 says x is a real number. -/
theorem real_of_cmp (x : EReal)
    (h : Ideal.cmp .olt (max x (-x)) (Ideal.ofBits .f32 0x7F800000#32) = 1#1) : ∃ a : ℝ, x = (a : EReal) := by
  rw [inf_eq] at h
  apply real_of_abs_lt_top
  change BitVec.ofBool (decide (max x (-x) < ⊤)) = 1#1 at h
  by_cases hc : max x (-x) < ⊤
  · exact hc
  · rw [decide_eq_false hc] at h; exact absurd h (by decide)

/-- The comparison x ≠ y answering 1 says x ≠ y (on a linear order the unordered "not equal" is "not equal"). -/
theorem ne_of_cmp (x y : EReal) (h : Ideal.cmp .une x y = 1#1) : x ≠ y := by
  change BitVec.ofBool (decide (x ≠ y)) = 1#1 at h
  by_cases hc : x ≠ y
  · exact hc
  · rw [decide_eq_false hc] at h; exact absurd h (by decide)

/-- Under the precondition every feature and every weight is a real number, and so is the ratio 2 / lambda_max. -/
theorem of_pre (x0 : FVec Ideal ⟨2, ![100000, 16]⟩ .f32) (x1 : FVec Ideal ⟨2, ![2, 48]⟩ .f32)
    (x2 x3 : IVec ⟨1, ![3200000]⟩ 32) (x4 : FVec Ideal ⟨1, ![1]⟩ .f32)
    (h : Cert.Pre_finite_inputs.fn (F := Ideal) x0 x1 x2 x3 x4 = (fun _ => 1#1)) :
    (∀ i k, ∃ a : ℝ, xOf x0 i k = (a : EReal)) ∧ (∀ j q, ∃ a : ℝ, wOf x1 j q = (a : EReal))
      ∧ (∃ a : ℝ, rOf x4 = (a : EReal)) := by
  -- the predicate at its one index: a conjunction of four "all entries satisfy …"
  have h0 := congrFun h ix0
  dsimp only [Cert.Pre_finite_inputs.fn, Cert.Pre_finite_inputs.fn_part1] at h0
  change IntOp.andi (IntOp.andi (IntOp.andi _ _) _) _ = 1#1 at h0
  obtain ⟨h123, h4⟩ := IntOp.andi_eq_one.1 h0
  obtain ⟨h12, h3⟩ := IntOp.andi_eq_one.1 h123
  obtain ⟨h1, h2⟩ := IntOp.andi_eq_one.1 h12
  -- each conjunct holds at every entry
  have e1 := Host.reduce_andi_all _ _ _ _ _ h1
  have e2 := Host.reduce_andi_all _ _ _ _ _ h2
  have e3 := Host.reduce_andi_all _ _ _ _ _ h3 (ix1 0)
  have e4 := Host.reduce_andi_all _ _ _ _ _ h4 (ix1 0)
  refine ⟨fun i k => real_of_cmp (x0 (ix2 i k)) (e1 (ix2 i k)), fun j q => real_of_cmp (x1 (ix2 j q)) (e2 (ix2 j q)), ?_⟩
  -- lambda_max is a real number a, and a ≠ 0: 2 / a = 2 · (1 / a)
  obtain ⟨a, ha⟩ := real_of_cmp (x4 (ix1 0)) e3
  have hne : a ≠ 0 := by
    intro hz
    have hx := ne_of_cmp (x4 (ix1 0)) (Ideal.ofBits .f32 0x00000000#32) e4
    rw [Ideal.ofBits_zero_f32, ha, hz] at hx
    exact hx EReal.coe_zero
  refine ⟨2 * (1 / a), ?_⟩
  unfold rOf
  rw [ha, Ideal.div_coe hne, c2_eq, ← EReal.coe_mul]

/-! ## The node scale -/

/-- A scatter-add of real updates into a real entry is a real number, wherever the updates land: the entry plus a
    finite sum of reals. -/
theorem scatterAdd_real {s si su : Shape} (d : ScatterDims s si su) {w : Nat} (x : s.Idx → EReal) (idx : IVec si w)
    (upd : su.Idx → EReal) (i : s.Idx) (hx : ∃ a : ℝ, x i = (a : EReal)) (hu : ∀ j, ∃ a : ℝ, upd j = (a : EReal)) :
    ∃ a : ℝ, Ideal.hostScatterAdd d x idx upd i = (a : EReal) := by
  unfold Ideal.hostScatterAdd
  obtain ⟨a, ha⟩ := hx
  have hS : ∀ S : Finset su.Idx, ∃ b : ℝ, ∑ j ∈ S, upd j = (b : EReal) := by
    intro S
    induction S using Finset.cons_induction with
    | empty => exact ⟨0, by simp⟩
    | cons j S hj ih =>
      obtain ⟨b, hb⟩ := ih
      obtain ⟨c, hc⟩ := hu j
      exact ⟨c + b, by rw [Finset.sum_cons, hb, hc, EReal.coe_add]⟩
  obtain ⟨b, hb⟩ := hS _
  exact ⟨a + b, by rw [ha, hb, EReal.coe_add]⟩

/-- The maximum of two reals, raised to a real power, is a real number. -/
theorem pow_max_real (a b p : ℝ) : ∃ r : ℝ, Ideal.pow (max (a : EReal) (b : EReal)) (p : EReal) = (r : EReal) := by
  have hmax : max (a : EReal) (b : EReal) = ((max a b : ℝ) : EReal) := by
    rcases le_total a b with h | h
    · rw [max_eq_right h, max_eq_right (EReal.coe_le_coe_iff.2 h)]
    · rw [max_eq_left h, max_eq_left (EReal.coe_le_coe_iff.2 h)]
  rw [hmax]
  exact ⟨Real.rpow (max a b) p, rfl⟩

open Cert.ReferenceIdeal.Read in
/-- The in-degree array as the scatter-add it is: zeros plus ones summed at the target indices. Stated between the
    arrays, not at an entry. -/
theorem v3_eq (dst : IVec ⟨1, ![3200000]⟩ 32) :
    val_main_v3 (F := Ideal) dst = Ideal.hostScatterAdd Cert.ReferenceIdeal.scatter_S100000_S3200000x1_S3200000_n_0_0_1
      (val_main_v1 (F := Ideal)) (val_main_v2 (F := Ideal) dst) (val_main_v0 (F := Ideal)) := rfl

open Cert.ReferenceIdeal.Read in
/-- Every in-degree is a real number: zero plus a finite sum of ones. -/
theorem v3_real (dst : IVec ⟨1, ![3200000]⟩ 32) (i : Cert.ReferenceIdeal.S100000.Idx) :
    ∃ m : ℝ, val_main_v3 (F := Ideal) dst i = (m : EReal) := by
  rw [v3_eq]
  refine scatterAdd_real _ _ _ _ i ⟨0, ?_⟩ (fun j => ⟨1, ?_⟩)
  · rw [val_main_v1_apply, val_main_cst_0_apply]
    show Ideal.ofBits .f32 0x00000000#32 = _
    rw [Ideal.ofBits_zero_f32, EReal.coe_zero]
  · rw [val_main_v0_apply, val_main_cst_apply]
    exact c1_eq

open Cert.ReferenceIdeal.Read in
/-- The node scale is a real number, whatever the target indices are. -/
theorem nu_real (dst : IVec ⟨1, ![3200000]⟩ 32) (n : Fin 100000) : ∃ a : ℝ, nuOf dst n = (a : EReal) := by
  unfold nuOf
  -- the scale at n is (max 1 (in-degree of n)) ^ (-1/2)
  rw [val_main_v7_apply, val_main_v6_apply, val_main_v4_apply, val_main_v5_apply, val_main_cst_2_apply,
    val_main_call0_v1_apply, val_main_call0_v0_apply, val_main_cst_1_apply]
  obtain ⟨m, hm⟩ := v3_real dst (idx_main_v7 (ix2 n 0))
  rw [hm]
  show ∃ a : ℝ, Ideal.pow (max (Ideal.ofBits .f32 0x3F800000#32) (m : EReal)) (Ideal.ofBits .f32 0xBF000000#32) = (a : EReal)
  rw [show Ideal.ofBits .f32 0x3F800000#32 = ((1 : ℝ) : EReal) from c1_eq, mhalf_eq]
  exact pow_max_real 1 m _

end Cert.PreFacts

end
-- ==== Proof.Algebra.lean ====
/-
  The algebra behind the equivalence, carried out over the real numbers.

  Every input is a real number, so every intermediate quantity of both programs is (the coercion of) a real
  number; each definition of the specification gets a real-valued twin, and the twin's coercion is shown to be
  the specification's value. Over the reals one propagation step
      (P y) n = (0 + ∑ e ∈ inb n, y (row e) * ν (row e)) * ν n
  is linear in the column `y`, so it commutes with the contraction of the feature axis:
      P (fun i => ∑ k, x i k * A k) n = ∑ k, (P (x · k)) n * A k.
  Writing pX = P X and ppX = P (P X) columnwise, the reference's recursion expands to
      X1 = -r·pX + (r - 1)·X,
      X2 = -2r·(-r·ppX + (r - 1)·pX) + 2(r - 1)·X1 - X,
  and the contraction of [X | X1 | X2] with the three 16-column slices of the weight collects, column by
  column, to X·A0 + pX·A1 + ppX·A2, the kernel's three terms.
-/
import proofs.«410256_j61907658605175_3_alg».proof.Proof.Spec
import Mathlib.Data.EReal.Inv
import Mathlib.Algebra.BigOperators.Fin
import Mathlib.Algebra.BigOperators.Ring.Finset
import Mathlib.Tactic.Ring
import Mathlib.Tactic.Linarith

noncomputable section

namespace Cert.Spec

open Finset

/-- The coercion of a finite real sum is the sum of the coercions. -/
theorem coe_sum {α : Type} (s : Finset α) (f : α → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over 48 columns is the sum over its three 16-column slices. -/
theorem sum_split (f : Fin 48 → ℝ) :
    ∑ q : Fin 48, f q
      = ∑ k : Fin 16, f (s0 k) + ∑ k : Fin 16, f (s1 k) + ∑ k : Fin 16, f (s2 k) := by
  have h1 : ∑ q : Fin 48, f q
      = ∑ i : Fin 16, f (Fin.castAdd 32 i) + ∑ i : Fin 32, f (Fin.natAdd 16 i) :=
    Fin.sum_univ_add (a := 16) (b := 32) f
  have h2 : ∑ i : Fin 32, f (Fin.natAdd 16 i)
      = ∑ i : Fin 16, f (Fin.natAdd 16 (Fin.castAdd 16 i))
        + ∑ i : Fin 16, f (Fin.natAdd 16 (Fin.natAdd 16 i)) :=
    Fin.sum_univ_add (a := 16) (b := 16) (fun i => f (Fin.natAdd 16 i))
  rw [h1, h2, ← add_assoc]
  rfl

variable {ι ε : Type}

/-! ## Real-valued twins of the specification -/

section Real
variable (x : ι → Fin 16 → ℝ) (w : Fin 2 → Fin 48 → ℝ) (r : ℝ) (ν : ι → ℝ) (row : ε → ι)
  (inb : ι → Finset ε)

def kA0R (k : Fin 16) (j : Fin 2) : ℝ :=
  (w j (s0 k) + (r - 1) * w j (s1 k)) + ((2 * ((r - 1) * (r - 1)) - 1) * w j (s2 k))
def kA1R (k : Fin 16) (j : Fin 2) : ℝ :=
  ((-r) * w j (s1 k)) - (((4 * r) * (r - 1)) * w j (s2 k))
def kA2R (k : Fin 16) (j : Fin 2) : ℝ :=
  ((2 * r) * r) * w j (s2 k)
def kMbcR (k : Fin 16) (j : Fin 4) : ℝ :=
  if h : j.val < 2 then kA1R w r k ⟨j.val, h⟩ else kA2R w r k ⟨j.val - 2, by omega⟩
def kZ0R (i : ι) (j : Fin 2) : ℝ := ∑ k : Fin 16, x i k * kA0R w r k j
def kZsR (i : ι) (j : Fin 4) : ℝ := (∑ k : Fin 16, x i k * kMbcR w r k j) * ν i
def kCombR (n : ι) (j : Fin 4) : ℝ := (0 + ∑ e ∈ inb n, kZsR x w r ν (row e) j) * ν n
def kPP2R (n : ι) (j : Fin 2) : ℝ :=
  (0 + ∑ e ∈ inb n, (kCombR x w r ν row inb (row e) ⟨j.val + 2, by omega⟩ * ν (row e))) * ν n
def kerArgR (n : ι) (j : Fin 2) : ℝ :=
  (kZ0R x w r n j + kCombR x w r ν row inb n ⟨j.val, by omega⟩) + kPP2R x w r ν row inb n j

def rP1R (n : ι) (k : Fin 16) : ℝ := (0 + ∑ e ∈ inb n, (x (row e) k * ν (row e))) * ν n
def rX1R (n : ι) (k : Fin 16) : ℝ := (-r) * rP1R x ν row inb n k + x n k * (r - 1)
def rP2R (n : ι) (k : Fin 16) : ℝ :=
  (0 + ∑ e ∈ inb n, (rX1R x r ν row inb (row e) k * ν (row e))) * ν n
def rX2R (n : ι) (k : Fin 16) : ℝ :=
  (((-2 * r) * rP2R x r ν row inb n k) + (rX1R x r ν row inb n k * (2 * (r - 1)))) - x n k
def rXtR (n : ι) (q : Fin 48) : ℝ :=
  if h : q.val < 16 then x n ⟨q.val, h⟩
  else if h' : q.val < 32 then rX1R x r ν row inb n ⟨q.val - 16, by omega⟩
  else rX2R x r ν row inb n ⟨q.val - 32, by omega⟩
def refArgR (n : ι) (j : Fin 2) : ℝ := ∑ q : Fin 48, rXtR x r ν row inb n q * w j q

/-! ## The specification at real inputs is the coercion of its twin -/

local notation "xE" => (fun i k => ((x i k : ℝ) : EReal))
local notation "wE" => (fun j q => ((w j q : ℝ) : EReal))
local notation "νE" => (fun i => ((ν i : ℝ) : EReal))
local notation "e1" => ((1 : ℝ) : EReal)
local notation "e2" => ((2 : ℝ) : EReal)
local notation "e4" => ((4 : ℝ) : EReal)
local notation "em2" => ((-2 : ℝ) : EReal)

theorem kA0_coe (k : Fin 16) (j : Fin 2) :
    kA0 e1 e2 wE (r : EReal) k j = ((kA0R w r k j : ℝ) : EReal) := by
  simp only [kA0, kA0R, EReal.coe_mul, EReal.coe_add, EReal.coe_sub]

theorem kA1_coe (k : Fin 16) (j : Fin 2) :
    kA1 e1 e4 wE (r : EReal) k j = ((kA1R w r k j : ℝ) : EReal) := by
  simp only [kA1, kA1R, EReal.coe_mul, EReal.coe_sub, EReal.coe_neg]

theorem kA2_coe (k : Fin 16) (j : Fin 2) :
    kA2 e2 wE (r : EReal) k j = ((kA2R w r k j : ℝ) : EReal) := by
  simp only [kA2, kA2R, EReal.coe_mul]

theorem kMbc_coe (k : Fin 16) (j : Fin 4) :
    kMbc e1 e2 e4 wE (r : EReal) k j = ((kMbcR w r k j : ℝ) : EReal) := by
  unfold kMbc kMbcR
  split_ifs with h
  · exact kA1_coe w r k _
  · exact kA2_coe w r k _

theorem kZ0_coe (i : ι) (j : Fin 2) :
    kZ0 e1 e2 xE wE (r : EReal) i j = ((kZ0R x w r i j : ℝ) : EReal) := by
  simp only [kZ0, kZ0R, kA0_coe, EReal.coe_mul, coe_sum]

theorem kZs_coe (i : ι) (j : Fin 4) :
    kZs e1 e2 e4 xE wE (r : EReal) νE i j = ((kZsR x w r ν i j : ℝ) : EReal) := by
  simp only [kZs, kZsR, kMbc_coe, EReal.coe_mul, coe_sum]

theorem kComb_coe (n : ι) (j : Fin 4) :
    kComb e1 e2 e4 xE wE (r : EReal) νE row inb n j
      = ((kCombR x w r ν row inb n j : ℝ) : EReal) := by
  simp only [kComb, kCombR, kZs_coe, EReal.coe_mul, EReal.coe_add, EReal.coe_zero, coe_sum]

theorem kPP2_coe (n : ι) (j : Fin 2) :
    kPP2 e1 e2 e4 xE wE (r : EReal) νE row inb n j
      = ((kPP2R x w r ν row inb n j : ℝ) : EReal) := by
  simp only [kPP2, kPP2R, kComb_coe, EReal.coe_mul, EReal.coe_add, EReal.coe_zero, coe_sum]

theorem ker_coe (n : ι) (j : Fin 2) :
    ker e1 e2 e4 xE wE (r : EReal) νE row inb n j
      = max ((kerArgR x w r ν row inb n j : ℝ) : EReal) 0 := by
  simp only [ker, kerArgR, kZ0_coe, kComb_coe, kPP2_coe, EReal.coe_add]

theorem rP1_coe (n : ι) (k : Fin 16) :
    rP1 xE νE row inb n k = ((rP1R x ν row inb n k : ℝ) : EReal) := by
  simp only [rP1, rP1R, EReal.coe_mul, EReal.coe_add, EReal.coe_zero, coe_sum]

theorem rX1_coe (n : ι) (k : Fin 16) :
    rX1 e1 xE (r : EReal) νE row inb n k = ((rX1R x r ν row inb n k : ℝ) : EReal) := by
  simp only [rX1, rX1R, rP1_coe, EReal.coe_mul, EReal.coe_add, EReal.coe_sub, EReal.coe_neg]

theorem rP2_coe (n : ι) (k : Fin 16) :
    rP2 e1 xE (r : EReal) νE row inb n k = ((rP2R x r ν row inb n k : ℝ) : EReal) := by
  simp only [rP2, rP2R, rX1_coe, EReal.coe_mul, EReal.coe_add, EReal.coe_zero, coe_sum]

theorem rX2_coe (n : ι) (k : Fin 16) :
    rX2 e1 e2 em2 xE (r : EReal) νE row inb n k = ((rX2R x r ν row inb n k : ℝ) : EReal) := by
  simp only [rX2, rX2R, rP2_coe, rX1_coe, EReal.coe_mul, EReal.coe_add, EReal.coe_sub]

theorem rXt_coe (n : ι) (q : Fin 48) :
    rXt e1 e2 em2 xE (r : EReal) νE row inb n q = ((rXtR x r ν row inb n q : ℝ) : EReal) := by
  unfold rXt rXtR
  split_ifs with h h'
  · rfl
  · exact rX1_coe x r ν row inb n _
  · exact rX2_coe x r ν row inb n _

theorem ref_coe (n : ι) (j : Fin 2) :
    ref e1 e2 em2 xE wE (r : EReal) νE row inb n j
      = max ((refArgR x w r ν row inb n j : ℝ) : EReal) 0 := by
  simp only [ref, refArgR, rXt_coe, EReal.coe_mul, coe_sum]

/-! ## Linearity of one propagation step -/

/-- One propagation step of a real column. -/
def P (y : ι → ℝ) (n : ι) : ℝ := (0 + ∑ e ∈ inb n, y (row e) * ν (row e)) * ν n

theorem P_add (y z : ι → ℝ) (n : ι) :
    P ν row inb (fun i => y i + z i) n = P ν row inb y n + P ν row inb z n := by
  simp only [P, zero_add, add_mul, Finset.sum_add_distrib]

theorem P_mul_right (y : ι → ℝ) (c : ℝ) (n : ι) :
    P ν row inb (fun i => y i * c) n = P ν row inb y n * c := by
  simp only [P, zero_add, Finset.sum_mul]
  exact Finset.sum_congr rfl fun e _ => by ring

theorem P_mul_left (c : ℝ) (y : ι → ℝ) (n : ι) :
    P ν row inb (fun i => c * y i) n = c * P ν row inb y n := by
  simp only [P, zero_add, Finset.sum_mul, Finset.mul_sum]
  exact Finset.sum_congr rfl fun e _ => by ring

theorem P_sum {κ : Type} (s : Finset κ) (g : κ → ι → ℝ) (n : ι) :
    P ν row inb (fun i => ∑ k ∈ s, g k i) n = ∑ k ∈ s, P ν row inb (g k) n := by
  simp only [P, zero_add, Finset.sum_mul]
  rw [Finset.sum_comm]

/-- `P X`, columnwise. -/
def pX (n : ι) (k : Fin 16) : ℝ := P ν row inb (fun i => x i k) n
/-- `P (P X)`, columnwise. -/
def ppX (n : ι) (k : Fin 16) : ℝ := P ν row inb (fun i => pX x ν row inb i k) n

/-! ## The reference's recursion, expanded -/

theorem rX1R_eq (n : ι) (k : Fin 16) :
    rX1R x r ν row inb n k = (-r) * pX x ν row inb n k + x n k * (r - 1) := rfl

theorem rP2R_eq (n : ι) (k : Fin 16) :
    rP2R x r ν row inb n k
      = (-r) * ppX x ν row inb n k + pX x ν row inb n k * (r - 1) := by
  have h : rP2R x r ν row inb n k
      = P ν row inb (fun i => (-r) * pX x ν row inb i k + x i k * (r - 1)) n := rfl
  rw [h, P_add, P_mul_left, P_mul_right]
  rfl

theorem rX2R_eq (n : ι) (k : Fin 16) :
    rX2R x r ν row inb n k
      = (((-2 * r) * ((-r) * ppX x ν row inb n k + pX x ν row inb n k * (r - 1)))
          + (((-r) * pX x ν row inb n k + x n k * (r - 1)) * (2 * (r - 1)))) - x n k := by
  unfold rX2R
  rw [rP2R_eq, rX1R_eq]

theorem rXtR_s0 (n : ι) (k : Fin 16) : rXtR x r ν row inb n (s0 k) = x n k := by
  have h : (s0 k).val < 16 := k.isLt
  unfold rXtR
  rw [dif_pos h]
  rfl

theorem rXtR_s1 (n : ι) (k : Fin 16) :
    rXtR x r ν row inb n (s1 k) = rX1R x r ν row inb n k := by
  have h1 : ¬ (s1 k).val < 16 := by show ¬ (16 + k.val < 16); omega
  have h2 : (s1 k).val < 32 := by show 16 + k.val < 32; omega
  unfold rXtR
  rw [dif_neg h1, dif_pos h2]
  congr 1
  exact Fin.ext (by show 16 + k.val - 16 = k.val; omega)

theorem rXtR_s2 (n : ι) (k : Fin 16) :
    rXtR x r ν row inb n (s2 k) = rX2R x r ν row inb n k := by
  have h1 : ¬ (s2 k).val < 16 := by show ¬ (32 + k.val < 16); omega
  have h2 : ¬ (s2 k).val < 32 := by show ¬ (32 + k.val < 32); omega
  unfold rXtR
  rw [dif_neg h1, dif_neg h2]
  congr 1
  exact Fin.ext (by show 32 + k.val - 32 = k.val; omega)

/-! ## The kernel's propagations, as contractions of `P X` and `P (P X)` -/

theorem kMbcR_lo (k : Fin 16) (j : Fin 2) :
    kMbcR w r k ⟨j.val, by omega⟩ = kA1R w r k j := by
  have h : ((⟨j.val, by omega⟩ : Fin 4)).val < 2 := j.isLt
  unfold kMbcR
  rw [dif_pos h]

theorem kMbcR_hi (k : Fin 16) (j : Fin 2) :
    kMbcR w r k ⟨j.val + 2, by omega⟩ = kA2R w r k j := by
  have h : ¬ ((⟨j.val + 2, by omega⟩ : Fin 4)).val < 2 := by show ¬ (j.val + 2 < 2); omega
  unfold kMbcR
  rw [dif_neg h]
  congr 1

theorem kCombR_eq (n : ι) (j : Fin 4) :
    kCombR x w r ν row inb n j = ∑ k : Fin 16, pX x ν row inb n k * kMbcR w r k j := by
  have h : kCombR x w r ν row inb n j
      = P ν row inb (fun i => ∑ k : Fin 16, x i k * kMbcR w r k j) n := rfl
  rw [h, P_sum]
  exact Finset.sum_congr rfl fun k _ => P_mul_right ν row inb _ _ n

theorem kPP2R_eq (n : ι) (j : Fin 2) :
    kPP2R x w r ν row inb n j = ∑ k : Fin 16, ppX x ν row inb n k * kA2R w r k j := by
  have h : kPP2R x w r ν row inb n j
      = P ν row inb (fun i => kCombR x w r ν row inb i ⟨j.val + 2, by omega⟩) n := rfl
  rw [h]
  simp only [kCombR_eq, kMbcR_hi]
  rw [P_sum]
  exact Finset.sum_congr rfl fun k _ => P_mul_right ν row inb _ _ n

/-! ## The two arguments of `max` agree over the reals -/

theorem kerArgR_eq_refArgR (n : ι) (j : Fin 2) :
    kerArgR x w r ν row inb n j = refArgR x w r ν row inb n j := by
  unfold kerArgR refArgR
  rw [sum_split]
  simp only [rXtR_s0, rXtR_s1, rXtR_s2, rX2R_eq, rX1R_eq, kZ0R, kCombR_eq, kPP2R_eq, kMbcR_lo]
  simp only [← Finset.sum_add_distrib]
  refine Finset.sum_congr rfl fun k _ => ?_
  simp only [kA0R, kA1R, kA2R]
  ring

end Real

/-! ## The theorem -/

theorem ker_eq_ref {ι ε : Type} (c1 c2 c4 cm2 : EReal)
    (h1 : c1 = ((1 : ℝ) : EReal)) (h2 : c2 = ((2 : ℝ) : EReal)) (h4 : c4 = ((4 : ℝ) : EReal)) (hm2 : cm2 = ((-2 : ℝ) : EReal))
    (x : ι → Fin 16 → EReal) (w : Fin 2 → Fin 48 → EReal) (r : EReal) (ν : ι → EReal) (row : ε → ι) (inb : ι → Finset ε)
    (hx : ∀ i k, ∃ a : ℝ, x i k = (a : EReal)) (hw : ∀ j q, ∃ a : ℝ, w j q = (a : EReal))
    (hr : ∃ a : ℝ, r = (a : EReal)) (hν : ∀ n, ∃ a : ℝ, ν n = (a : EReal)) :
    ker c1 c2 c4 x w r ν row inb = ref c1 c2 cm2 x w r ν row inb := by
  obtain ⟨r', rfl⟩ := hr
  choose x' hx' using hx
  choose w' hw' using hw
  choose ν' hν' using hν
  obtain rfl : x = fun i k => ((x' i k : ℝ) : EReal) := funext fun i => funext fun k => hx' i k
  obtain rfl : w = fun j q => ((w' j q : ℝ) : EReal) := funext fun j => funext fun q => hw' j q
  obtain rfl : ν = fun i => ((ν' i : ℝ) : EReal) := funext fun i => hν' i
  subst h1 h2 h4 hm2
  funext n j
  rw [ker_coe, ref_coe, kerArgR_eq_refArgR]

end Cert.Spec

end
-- ==== Proof.Bridge.lean ====
/-
  The two idealized programs end with equal results.

  From memories that agree on the arguments, the kernel's result array is, entry by entry, the kernel's side of the
  specification at the launch arguments, and the reference's is the reference's side at the same arguments. Under
  the precondition every feature, every weight and the ratio 2 / lambda_max is a real number, the node scale always
  is, and then the two sides are one function: the propagation is linear on real columns, so it commutes with the
  contraction of the feature axis, and the Chebyshev recursion's coefficients regroup as the kernel's three matrices.
-/
import proofs.«410256_j61907658605175_3_alg».proof.Defs
import proofs.«410256_j61907658605175_3_alg».proof.Proof.KRun
import proofs.«410256_j61907658605175_3_alg».proof.Proof.KValue
import proofs.«410256_j61907658605175_3_alg».proof.Proof.RefSide
import proofs.«410256_j61907658605175_3_alg».proof.Proof.PreFacts
import proofs.«410256_j61907658605175_3_alg».proof.Proof.Algebra
import proofs.«410256_j61907658605175_3_alg».proof.Proof.Gen.ReferenceIdeal.Run
import proofs.«410256_j61907658605175_3_alg».proof.Proof.Gen.ReferenceIdeal.Read
import proofs.«410256_j61907658605175_3_alg».proof.Proof.Gen.Pre_finite_inputs

set_option maxRecDepth 16384

noncomputable section

namespace Cert.Bridge

open Idealize.ShloMosaic Idealize.ShloMosaic.TcCoe Idealize.ShloMosaic.ValueIdx Idealize.SL.Sem Cert.Iface

/-- The reference's last stage at the kernel's launch arguments is the kernel's result array, under the precondition. -/
theorem result_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hpre : Cert.Pre_finite_inputs.fn (F := Ideal) (Cert.KernelIdeal.Host0.xArg m c) (Cert.KernelIdeal.Host0.wArg m c)
      (Cert.KernelIdeal.Host0.srcArg m c) (Cert.KernelIdeal.Host0.dstArg m c) (Cert.KernelIdeal.Host0.lamArg m c) = (fun _ => 1#1)) :
    Cert.ReferenceIdeal.Read.val_main_v62 (F := Ideal) (Cert.KernelIdeal.Host0.xArg m c) (Cert.KernelIdeal.Host0.wArg m c)
      (Cert.KernelIdeal.Host0.srcArg m c) (Cert.KernelIdeal.Host0.dstArg m c) (Cert.KernelIdeal.Host0.lamArg m c)
      = Cert.KernelIdeal.KValue.outArr m ρ c := by
  funext i
  obtain ⟨n, j, rfl⟩ : ∃ (n : Fin 100000) (j : Fin 2), i = ix2 n j := ⟨i 0, i 1, eq_ix2 i⟩
  obtain ⟨hx, hw, hr⟩ := Cert.PreFacts.of_pre _ _ _ _ _ hpre
  rw [Cert.RefSide.ref_value]
  refine ((Cert.KernelIdeal.KValue.out_entry m ρ c n j).trans ?_).symm
  exact congrFun (congrFun (Cert.Spec.ker_eq_ref c1 c2 c4 cm2 Cert.PreFacts.c1_eq Cert.PreFacts.c2_eq Cert.PreFacts.c4_eq
    Cert.PreFacts.cm2_eq _ _ _ _ _ _ hx hw hr (fun n => Cert.PreFacts.nu_real _ n)) n) j

theorem algebraic : Cert.algebraic_KernelIdeal_ReferenceIdeal := by
  intro m ρ m' ρ' hpre hagree
  refine ⟨fun c => Cert.KernelIdeal.Gen.W6 (F := Ideal) m ρ c (Proc.devRef .tc Cert.KernelIdeal.main_v73),
    Cert.KernelIdeal.KRun.run (F := Ideal) m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v62_eq, (hagree c).1, (hagree c).2.1, (hagree c).2.2.1, (hagree c).2.2.2.1,
    (hagree c).2.2.2.2]
  exact result_eq m ρ c (hpre c)

end Cert.Bridge

end
-- ==== Proof.lean ====
/-
  The certificate's five claims.

  Each printed program runs to the end without a fault and leaves its arguments as launched (the two kernels by their
  frame certificates, the reference by its run with the result dropped); the idealized kernel is the kernel's own text
  read on the extended reals (no rewrite was made, so nothing is owed for it); and the two idealized programs end with
  equal results: the refactored Chebyshev convolution of the kernel is the reference's recursion once every input and
  the ratio 2 / lambda_max is a real number.
-/
import proofs.«410256_j61907658605175_3_alg».proof.Defs
import proofs.«410256_j61907658605175_3_alg».proof.Proof.Gen.Kernel
import proofs.«410256_j61907658605175_3_alg».proof.Proof.Gen.Kernel.Skeleton
import proofs.«410256_j61907658605175_3_alg».proof.Proof.Gen.Kernel.Launch
import proofs.«410256_j61907658605175_3_alg».proof.Proof.Gen.Kernel.Points
import proofs.«410256_j61907658605175_3_alg».proof.Proof.Gen.Kernel.Frame
import proofs.«410256_j61907658605175_3_alg».proof.Proof.Gen.KernelIdeal
import proofs.«410256_j61907658605175_3_alg».proof.Proof.Gen.KernelIdeal.Skeleton
import proofs.«410256_j61907658605175_3_alg».proof.Proof.Gen.KernelIdeal.Launch
import proofs.«410256_j61907658605175_3_alg».proof.Proof.Gen.KernelIdeal.Points
import proofs.«410256_j61907658605175_3_alg».proof.Proof.Gen.KernelIdeal.Frame
import proofs.«410256_j61907658605175_3_alg».proof.Proof.Gen.ReferenceIdeal
import proofs.«410256_j61907658605175_3_alg».proof.Proof.Gen.Pre_finite_inputs
import proofs.«410256_j61907658605175_3_alg».proof.Proof.Gen.ReferenceIdeal.Run
import proofs.«410256_j61907658605175_3_alg».proof.Proof.Gen.ReferenceIdeal.Read
import proofs.«410256_j61907658605175_3_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  Cert.Bridge.algebraic⟩

end Cert.Proof

end
